-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S16x40 1) : IVec S_ 1 :=
  let main_c_5 : IVec S_ 1 := constantI S_ 1 1#1
  let main_v17 : IVec S_ 1 := (fun x v => Host.reduce IntOp.andi x v reducesTo_S16x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x40 .f32) (main_arg5 : FVec F S40 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x40 .f32 := Host.absf main_arg4
  let main_cst_4 : FVec F S_ .f32 := constant S_ .f32 0x7F800000#32
  let main_v15 : FVec F S16x40 .f32 := broadcastInDim S16x40 ![] bcast_S_S16x40 main_cst_4
  let main_v16 : IVec S16x40 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S2000x512 : Shape := ⟨2, ![2000, 512]⟩
abbrev S2000x16 : Shape := ⟨2, ![2000, 16]⟩
abbrev S3300000x16 : Shape := ⟨2, ![3300000, 16]⟩
abbrev S1x16 : Shape := ⟨2, ![1, 16]⟩
abbrev S100000x40 : Shape := ⟨2, ![100000, 40]⟩
abbrev S2000x40 : Shape := ⟨2, ![2000, 40]⟩
abbrev S3300000x40 : Shape := ⟨2, ![3300000, 40]⟩
abbrev S1x40 : Shape := ⟨2, ![1, 40]⟩
abbrev S2000 : Shape := ⟨1, ![2000]⟩
abbrev S2000x1 : Shape := ⟨2, ![2000, 1]⟩

abbrev nBuf : Space → Nat
  | .hbm => 87
  | .vmem => 20
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x40, .f32⟩
  | .hbm, ⟨5, _⟩ => ⟨S40, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x16, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x16, .f32⟩
  | .hbm, ⟨59, _⟩ => ⟨S3300000x1, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x16, .f32⟩
  | .hbm, ⟨68, _⟩ => ⟨S100000x40, .f32⟩
  | .hbm, ⟨69, _⟩ => ⟨S_, .i32⟩
  | .hbm, ⟨70, _⟩ => ⟨S3300000, .i32⟩
  | .hbm, ⟨71, _⟩ => ⟨S3300000, .i1⟩
  | .hbm, ⟨72, _⟩ => ⟨S_, .i32⟩
  | .hbm, ⟨73, _⟩ => ⟨S3300000, .i32⟩
  | .hbm, ⟨74, _⟩ => ⟨S3300000, .i32⟩
  | .hbm, ⟨75, _⟩ => ⟨S3300000, .i32⟩
  | .hbm, ⟨76, _⟩ => ⟨S3300000x1, .i32⟩
  | .hbm, ⟨77, _⟩ => ⟨S3300000x40, .f32⟩
  | .hbm, ⟨78, _⟩ => ⟨S3300000x1, .f32⟩
  | .hbm, ⟨79, _⟩ => ⟨S3300000x40, .f32⟩
  | .hbm, ⟨80, _⟩ => ⟨S3300000x40, .f32⟩
  | .hbm, ⟨81, _⟩ => ⟨S_, .f32⟩
  | .hbm, ⟨82, _⟩ => ⟨S100000x40, .f32⟩
  | .hbm, ⟨83, _⟩ => ⟨S3300000x1, .i32⟩
  | .hbm, ⟨84, _⟩ => ⟨S100000x40, .f32⟩
  | .hbm, ⟨85, _⟩ => ⟨S1x40, .f32⟩
  | .hbm, ⟨86, _⟩ => ⟨S100000x40, .f32⟩
  | .local _ .vmem, ⟨0, _⟩ => ⟨S2000x512, .f32⟩
  | .local _ .vmem, ⟨1, _⟩ => ⟨S2000x512, .f32⟩
  | .local _ .vmem, ⟨2, _⟩ => ⟨S512x16, .f32⟩
  | .local _ .vmem, ⟨3, _⟩ => ⟨S2000x16, .f32⟩
  | .local _ .vmem, ⟨4, _⟩ => ⟨S2000x16, .f32⟩
  | .local _ .vmem, ⟨5, _⟩ => ⟨S2000x16, .f32⟩
  | .local _ .vmem, ⟨6, _⟩ => ⟨S2000x16, .f32⟩
  | .local _ .vmem, ⟨7, _⟩ => ⟨S1x16, .f32⟩
  | .local _ .vmem, ⟨8, _⟩ => ⟨S2000x16, .f32⟩
  | .local _ .vmem, ⟨9, _⟩ => ⟨S2000x16, .f32⟩
  | .local _ .vmem, ⟨10, _⟩ => ⟨S2000x16, .f32⟩
  | .local _ .vmem, ⟨11, _⟩ => ⟨S2000x16, .f32⟩
  | .local _ .vmem, ⟨12, _⟩ => ⟨S16x40, .f32⟩
  | .local _ .vmem, ⟨13, _⟩ => ⟨S2000x40, .f32⟩
  | .local _ .vmem, ⟨14, _⟩ => ⟨S2000x40, .f32⟩
  | .local _ .vmem, ⟨15, _⟩ => ⟨S2000x40, .f32⟩
  | .local _ .vmem, ⟨16, _⟩ => ⟨S2000x40, .f32⟩
  | .local _ .vmem, ⟨17, _⟩ => ⟨S1x40, .f32⟩
  | .local _ .vmem, ⟨18, _⟩ => ⟨S2000x40, .f32⟩
  | .local _ .vmem, ⟨19, _⟩ => ⟨S2000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_c_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S2000x16_S2000x16_0_0 : ∀ a, (![0, 0] : Fin 2 → Nat) a + S2000x16.size a ≤ S2000x16.size a
  h_S2000x16 : 0 < S2000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S2000x16_S2000x16 : S2000x16.ShapeCasts S2000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S16x40_S16x40_0_0 : ∀ a, (![0, 0] : Fin 2 → Nat) a + S16x40.size a ≤ S16x40.size a
  h_S16x40 : 0 < S16x40.numel
  inb_S2000x40_S2000x40_0_0 : ∀ a, (![0, 0] : Fin 2 → Nat) a + S2000x40.size a ≤ S2000x40.size a
  h_S2000x40 : 0 < S2000x40.numel
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  shapeCasts_S40_S1x40 : S40.ShapeCasts S1x40
  shapeCasts_S2000x40_S2000x40 : S2000x40.ShapeCasts S2000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  reduces_S2000x40_S2000 : S2000x40.Reduces [1] S2000
  shapeCasts_S2000_S2000x1 : S2000.ShapeCasts S2000x1
  broadcasts_S2000x1_S2000x40 : S2000x1.Broadcasts S2000x40
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S2000x512_S512x16_S2000x16_1_0_0_1_n_n_wf : DotDims.WF S2000x512 S512x16 S2000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S2000x16_S16x40_S2000x40_1_0_0_1_n_n_wf : DotDims.WF S2000x16 S16x40 S2000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x16.size a ≤ S100000x16.size a
  hwx0_2 : ∀ i : grid0.Coords, EltTy.bits .f32 = 32 ∨ (Rect.block (s := S100000x16) S2000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x16.size a ≤ S100000x16.size a
  hwx1_0 : ∀ i : grid1.Coords, EltTy.bits .f32 = 32 ∨ (Rect.block (s := S100000x16) S2000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x16.size a ≤ S100000x16.size a
  hwx1_2 : ∀ i : grid1.Coords, EltTy.bits .f32 = 32 ∨ (Rect.block (s := S100000x16) S2000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x16.size a ≤ S100000x16.size a
  hwx2_0 : ∀ i : grid2.Coords, EltTy.bits .f32 = 32 ∨ (Rect.block (s := S100000x16) S2000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x40.size a ≤ S16x40.size a
  hwx2_1 : ∀ i : grid2.Coords, EltTy.bits .f32 = 32 ∨ (Rect.block (s := S16x40) S16x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x40.size a ≤ S100000x40.size a
  hwx2_2 : ∀ i : grid2.Coords, EltTy.bits .f32 = 32 ∨ (Rect.block (s := S100000x40) S2000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x40.size a ≤ S100000x40.size a
  hwx3_0 : ∀ i : grid3.Coords, EltTy.bits .f32 = 32 ∨ (Rect.block (s := S100000x40) S2000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x40.size a ≤ S1x40.size a
  hwx3_1 : ∀ i : grid3.Coords, EltTy.bits .f32 = 32 ∨ (Rect.block (s := S1x40) S1x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x40.size a ≤ S100000x40.size a
  hwx3_2 : ∀ i : grid3.Coords, EltTy.bits .f32 = 32 ∨ (Rect.block (s := S100000x40) S2000x40.size (cc3_transform_2 i) (hinb3_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S2000x512_S512x16_S2000x16_1_0_0_1_n_n : DotDims S2000x512 S512x16 S2000x16 where
  lhsContracting := [1]
  rhsContracting := [0]
  lhsNonContracting := [0]
  rhsNonContracting := [1]
  lhsBatch := []
  rhsBatch := []
  wf := dot_S2000x512_S512x16_S2000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S2000x16_S16x40_S2000x40_1_0_0_1_n_n : DotDims S2000x16 S16x40 S2000x40 where
  lhsContracting := [1]
  rhsContracting := [0]
  lhsNonContracting := [0]
  rhsNonContracting := [1]
  lhsBatch := []
  rhsBatch := []
  wf := dot_S2000x16_S16x40_S2000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S2000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S2000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S2000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S2000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S2000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S2000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x40 : Shape := ⟨2, ![100000, 40]⟩
abbrev S3300000x40 : Shape := ⟨2, ![3300000, 40]⟩
abbrev S1x40 : Shape := ⟨2, ![1, 40]⟩
abbrev S100000x1 : Shape := ⟨2, ![100000, 1]⟩

abbrev nBuf : Space → Nat
  | .hbm => 107
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x40, .f32⟩
  | .hbm, ⟨5, _⟩ => ⟨S40, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x16, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x16, .f32⟩
  | .hbm, ⟨59, _⟩ => ⟨S3300000x1, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x16, .f32⟩
  | .hbm, ⟨68, _⟩ => ⟨S100000x16, .f32⟩
  | .hbm, ⟨69, _⟩ => ⟨S_, .f32⟩
  | .hbm, ⟨70, _⟩ => ⟨S100000x16, .f32⟩
  | .hbm, ⟨71, _⟩ => ⟨S100000x16, .f32⟩
  | .hbm, ⟨72, _⟩ => ⟨S100000x40, .f32⟩
  | .hbm, ⟨73, _⟩ => ⟨S_, .i32⟩
  | .hbm, ⟨74, _⟩ => ⟨S3300000, .i32⟩
  | .hbm, ⟨75, _⟩ => ⟨S3300000, .i1⟩
  | .hbm, ⟨76, _⟩ => ⟨S_, .i32⟩
  | .hbm, ⟨77, _⟩ => ⟨S3300000, .i32⟩
  | .hbm, ⟨78, _⟩ => ⟨S3300000, .i32⟩
  | .hbm, ⟨79, _⟩ => ⟨S3300000, .i32⟩
  | .hbm, ⟨80, _⟩ => ⟨S3300000x1, .i32⟩
  | .hbm, ⟨81, _⟩ => ⟨S3300000x40, .f32⟩
  | .hbm, ⟨82, _⟩ => ⟨S3300000x1, .f32⟩
  | .hbm, ⟨83, _⟩ => ⟨S3300000x40, .f32⟩
  | .hbm, ⟨84, _⟩ => ⟨S3300000x40, .f32⟩
  | .hbm, ⟨85, _⟩ => ⟨S_, .f32⟩
  | .hbm, ⟨86, _⟩ => ⟨S100000x40, .f32⟩
  | .hbm, ⟨87, _⟩ => ⟨S3300000x1, .i32⟩
  | .hbm, ⟨88, _⟩ => ⟨S100000x40, .f32⟩
  | .hbm, ⟨89, _⟩ => ⟨S1x40, .f32⟩
  | .hbm, ⟨90, _⟩ => ⟨S100000x40, .f32⟩
  | .hbm, ⟨91, _⟩ => ⟨S100000x40, .f32⟩
  | .hbm, ⟨92, _⟩ => ⟨S_, .f32⟩
  | .hbm, ⟨93, _⟩ => ⟨S100000, .f32⟩
  | .hbm, ⟨94, _⟩ => ⟨S_, .f32⟩
  | .hbm, ⟨95, _⟩ => ⟨S100000, .f32⟩
  | .hbm, ⟨96, _⟩ => ⟨S100000, .f32⟩
  | .hbm, ⟨97, _⟩ => ⟨S100000x1, .f32⟩
  | .hbm, ⟨98, _⟩ => ⟨S100000x40, .f32⟩
  | .hbm, ⟨99, _⟩ => ⟨S100000x40, .f32⟩
  | .hbm, ⟨100, _⟩ => ⟨S100000x40, .f32⟩
  | .hbm, ⟨101, _⟩ => ⟨S_, .f32⟩
  | .hbm, ⟨102, _⟩ => ⟨S100000, .f32⟩
  | .hbm, ⟨103, _⟩ => ⟨S100000x1, .f32⟩
  | .hbm, ⟨104, _⟩ => ⟨S100000x1, .f32⟩
  | .hbm, ⟨105, _⟩ => ⟨S100000x40, .f32⟩
  | .hbm, ⟨106, _⟩ => ⟨S100000x40, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call2_cst : Ref sig .tc := ⟨.hbm, 92, rfl⟩
abbrev main_call2_v0 : Ref sig .tc := ⟨.hbm, 93, rfl⟩
abbrev main_call2_cst_0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_cst_1 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_v67 : Ref sig .tc := ⟨.hbm, 106, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x16_S100000x16_1_0_0_1_n_n_wf : DotDims.WF S100000x512 S512x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x40_S100000x40_1_0_0_1_n_n_wf : DotDims.WF S100000x16 S16x40 S100000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

class Facts : Prop extends Facts₀ where

variable [Facts]
-- ==== Proof.Spec.lean ====
/-
  The three row-wise maps of a two-layer graph convolution, each as one function of whole arrays over the
  extended reals, entry by entry:
  * the matrix product of an `[M, K]` array with a `[K, N]` array;
  * a bias row added to every row, then the positive part;
  * a bias row added to every row, then the row's log-softmax: with `z` the biased row and `μ` its largest entry,
    the entry `z j - μ - log (∑ j', exp (z j' - μ))`.
  Each row of a result depends on the same row of the first operand only, so a tiling of the rows computes the same
  array block by block.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- An `[M, N]` array of extended reals. -/
abbrev Mat (M N : Nat) : Type := (⟨2, ![M, N]⟩ : Shape).Idx → EReal

/-- The row coordinate of an entry's index. -/
def rowOf {M N : Nat} (i : (⟨2, ![M, N]⟩ : Shape).Idx) : Fin M := ⟨(i 0).val, (i 0).isLt⟩

/-- The column coordinate of an entry's index. -/
def colOf {M N : Nat} (i : (⟨2, ![M, N]⟩ : Shape).Idx) : Fin N := ⟨(i 1).val, (i 1).isLt⟩

@[simp] theorem rowOf_ix2 {M N : Nat} (p : Fin M) (q : Fin N) : rowOf (ix2 p q) = p := rfl
@[simp] theorem colOf_ix2 {M N : Nat} (p : Fin M) (q : Fin N) : colOf (ix2 p q) = q := rfl

/-- The matrix product: entry `(p, q)` is `∑ k, x (p, k) · w (k, q)`. -/
def matProd {M K N : Nat} (x : Mat M K) (w : Mat K N) : Mat M N :=
  fun i => ∑ k : Fin K, x (ix2 (rowOf i) k) * w (ix2 k (colOf i))

theorem matProd_apply {M K N : Nat} (x : Mat M K) (w : Mat K N) (p : Fin M) (q : Fin N) :
    matProd x w (ix2 p q) = ∑ k : Fin K, x (ix2 p k) * w (ix2 k q) := rfl

/-- A bias row added to every row, then the positive part: entry `(p, q)` is `max (a (p, q) + b (0, q)) 0`. -/
def biasRelu {M N : Nat} (a : Mat M N) (b : Mat 1 N) : Mat M N :=
  fun i => max (a (ix2 (rowOf i) (colOf i)) + b (ix2 0 (colOf i))) 0

theorem biasRelu_apply {M N : Nat} (a : Mat M N) (b : Mat 1 N) (p : Fin M) (q : Fin N) :
    biasRelu a b (ix2 p q) = max (a (ix2 p q) + b (ix2 0 q)) 0 := rfl

/-- Row `p` with the bias row added: `j ↦ a (p, j) + b (0, j)`. -/
def biased {M N : Nat} (a : Mat M N) (b : Mat 1 N) (p : Fin M) : Fin N → EReal :=
  fun j => a (ix2 p j) + b (ix2 0 j)

/-- The largest entry of a row of extended reals (`⊥` for the empty row). -/
def rowMax {N : Nat} (z : Fin N → EReal) : EReal := (Finset.univ : Finset (Fin N)).fold max ⊥ z

/-- A bias row added to every row, then the row's log-softmax. -/
def biasLogSoftmax {M N : Nat} (a : Mat M N) (b : Mat 1 N) : Mat M N :=
  fun i => (biased a b (rowOf i) (colOf i) - rowMax (biased a b (rowOf i)))
    - Ideal.log (∑ j : Fin N, Ideal.exp (biased a b (rowOf i) j - rowMax (biased a b (rowOf i))))

theorem biasLogSoftmax_apply {M N : Nat} (a : Mat M N) (b : Mat 1 N) (p : Fin M) (q : Fin N) :
    biasLogSoftmax a b (ix2 p q) = (biased a b p q - rowMax (biased a b p))
      - Ideal.log (∑ j : Fin N, Ideal.exp (biased a b p j - rowMax (biased a b p))) := rfl

end Cert.Spec

end
-- ==== Proof.Glue.lean ====
/-
  A two-layer graph convolution as one function of its six arguments.
  The edge list `e` gives, per layer, the same gather-scale-scatter: with self loops appended, `src` and `dst` are the
  edges' end nodes, `deg` counts the edges into each node, `dinv = deg^(-1/2)` where `deg > 0`, the weight of an edge is
  `dinv src · dinv dst`, and a layer's aggregate at node `v` is the sum over the edges into `v` of the weighted source
  rows. These host operations are carried here as named functions, never opened: both programs apply them to their
  layer outputs, so only the layers themselves (two matrix products, a bias with positive part, a bias with
  log-softmax) are compared, and those meet in the entrywise functions of `Cert.Spec`.
-/
import proofs.«178386_j15762529976718_1_alg».proof.Proof.Gen.ReferenceIdeal
import proofs.«178386_j15762529976718_1_alg».proof.Proof.Spec
import Idealize.ShloMosaic.PureOps.Ideal

noncomputable section

namespace Cert.Glue

open Cert.ReferenceIdeal Cert.ReferenceIdeal.Facts₀ Cert.ReferenceIdeal.Facts Idealize.ShloMosaic Idealize.ShloMosaic.ValueIdx

variable {F : FTy → Type} [FloatOps F]

/-- The edges' source nodes, then every node once (the self loops). -/
def srcIdx (e : (⟨S2x3200000, .i32⟩ : BufTy).Contents (Elt F)) : (⟨S3300000, .i32⟩ : BufTy).Contents (Elt F) :=
  concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0

/-- The edges' destination nodes, then every node once (the self loops). -/
def dstIdx (e : (⟨S2x3200000, .i32⟩ : BufTy).Contents (Elt F)) : (⟨S3300000, .i32⟩ : BufTy).Contents (Elt F) :=
  concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0

/-- A node list as gather indices: a negative entry counts from the end. -/
def wrap (i : (⟨S3300000, .i32⟩ : BufTy).Contents (Elt F)) : (⟨S3300000x1, .i32⟩ : BufTy).Contents (Elt F) :=
  broadcastInDim S3300000x1 ![0] bcast_S3300000_S3300000x1_0 (select (cmpi .slt i (broadcastInDim S3300000 ![] bcast_S_S3300000 (constantI S_ 32 0#32))) (addi i (broadcastInDim S3300000 ![] bcast_S_S3300000 (constantI S_ 32 100000#32))) i)

/-- The number of edges into each node. -/
def deg (dst : (⟨S3300000, .i32⟩ : BufTy).Contents (Elt F)) : (⟨S100000, .f32⟩ : BufTy).Contents (Elt F) :=
  Host.scatterAdd scatter_S100000_S3300000x1_S3300000_n_0_0_1 (broadcastInDim S100000 ![] bcast_S_S100000 (constant S_ .f32 0x00000000#32)) (broadcastInDim S3300000x1 ![0] bcast_S3300000_S3300000x1_0 dst) (broadcastInDim S3300000 ![] bcast_S_S3300000 (constant S_ .f32 0x3F800000#32))

/-- `deg^(-1/2)` where `deg > 0`, else `0`. -/
def dinv (dst : (⟨S3300000, .i32⟩ : BufTy).Contents (Elt F)) : (⟨S100000, .f32⟩ : BufTy).Contents (Elt F) :=
  select (cmpf (F := F) .ogt (deg dst) (broadcastInDim S100000 ![] bcast_S_S100000 (constant S_ .f32 0x00000000#32))) (Host.rsqrt (maximumf (deg dst) (broadcastInDim S100000 ![] bcast_S_S100000 (constant S_ .f32 0x3F800000#32)))) (broadcastInDim S100000 ![] bcast_S_S100000 (id (constant S_ .f32 0x00000000#32)))

/-- An edge's weight: `dinv` at its source times `dinv` at its destination. -/
def norm (src dst : (⟨S3300000, .i32⟩ : BufTy).Contents (Elt F)) : (⟨S3300000, .f32⟩ : BufTy).Contents (Elt F) :=
  mulf (Host.gather gather_S100000_S3300000x1_S3300000_n_0_n_n_0_1_1 (dinv dst) (wrap src)) (Host.gather gather_S100000_S3300000x1_S3300000_n_0_n_n_0_1_1 (dinv dst) (wrap dst))

/-- The first layer's aggregate: the weighted source rows of `h`, summed into their destination rows. -/
def agg16 (src dst : (⟨S3300000, .i32⟩ : BufTy).Contents (Elt F)) (nrm : (⟨S3300000, .f32⟩ : BufTy).Contents (Elt F))
    (h : (⟨S100000x16, .f32⟩ : BufTy).Contents (Elt F)) : (⟨S100000x16, .f32⟩ : BufTy).Contents (Elt F) :=
  Host.scatterAdd scatter_S100000x16_S3300000x1_S3300000x16_1_0_0_1 (broadcastInDim S100000x16 ![] bcast_S_S100000x16 (constant S_ .f32 0x00000000#32)) (broadcastInDim S3300000x1 ![0] bcast_S3300000_S3300000x1_0 dst) (mulf (Host.gather gather_S100000x16_S3300000x1_S3300000x16_1_0_n_n_0_1_116 h (wrap src)) (broadcastInDim S3300000x16 ![0, 1] bcast_S3300000x1_S3300000x16_0_1 (broadcastInDim S3300000x1 ![0] bcast_S3300000_S3300000x1_0 nrm)))

/-- The second layer's aggregate: the same over rows of 40 entries. -/
def agg40 (src dst : (⟨S3300000, .i32⟩ : BufTy).Contents (Elt F)) (nrm : (⟨S3300000, .f32⟩ : BufTy).Contents (Elt F))
    (h : (⟨S100000x40, .f32⟩ : BufTy).Contents (Elt F)) : (⟨S100000x40, .f32⟩ : BufTy).Contents (Elt F) :=
  Host.scatterAdd scatter_S100000x40_S3300000x1_S3300000x40_1_0_0_1 (broadcastInDim S100000x40 ![] bcast_S_S100000x40 (constant S_ .f32 0x00000000#32)) (broadcastInDim S3300000x1 ![0] bcast_S3300000_S3300000x1_0 dst) (mulf (Host.gather gather_S100000x40_S3300000x1_S3300000x40_1_0_n_n_0_1_140 h (wrap src)) (broadcastInDim S3300000x40 ![0, 1] bcast_S3300000x1_S3300000x40_0_1 (broadcastInDim S3300000x1 ![0] bcast_S3300000_S3300000x1_0 nrm)))

/-! ## The layers as the host computes them -/

/-- `x · W1` as one host product. -/
def refLinear1 (x : (⟨S100000x512, .f32⟩ : BufTy).Contents (Elt F)) (w : (⟨S512x16, .f32⟩ : BufTy).Contents (Elt F)) :
    (⟨S100000x16, .f32⟩ : BufTy).Contents (Elt F) :=
  Host.dotGeneral dot_S100000x512_S512x16_S100000x16_1_0_0_1_n_n none x w

/-- `h · W2` as one host product. -/
def refLinear2 (h : (⟨S100000x16, .f32⟩ : BufTy).Contents (Elt F)) (w : (⟨S16x40, .f32⟩ : BufTy).Contents (Elt F)) :
    (⟨S100000x40, .f32⟩ : BufTy).Contents (Elt F) :=
  Host.dotGeneral dot_S100000x16_S16x40_S100000x40_1_0_0_1_n_n none h w

/-- The bias laid along every row and added, then the positive part. -/
def refBiasRelu (a : (⟨S100000x16, .f32⟩ : BufTy).Contents (Elt F)) (b : (⟨S16, .f32⟩ : BufTy).Contents (Elt F)) :
    (⟨S100000x16, .f32⟩ : BufTy).Contents (Elt F) :=
  maximumf (addf a (broadcastInDim S100000x16 ![0, 1] bcast_S1x16_S100000x16_0_1 (broadcastInDim S1x16 ![1] bcast_S16_S1x16_1 b))) (broadcastInDim S100000x16 ![] bcast_S_S100000x16 (constant S_ .f32 0x00000000#32))

/-- The bias laid along every row and added. -/
def refBias40 (a : (⟨S100000x40, .f32⟩ : BufTy).Contents (Elt F)) (b : (⟨S40, .f32⟩ : BufTy).Contents (Elt F)) :
    (⟨S100000x40, .f32⟩ : BufTy).Contents (Elt F) :=
  addf a (broadcastInDim S100000x40 ![0, 1] bcast_S1x40_S100000x40_0_1 (broadcastInDim S1x40 ![1] bcast_S40_S1x40_1 b))

/-- Each row's largest entry, laid along the row. -/
def refRowMax (z : (⟨S100000x40, .f32⟩ : BufTy).Contents (Elt F)) : (⟨S100000x40, .f32⟩ : BufTy).Contents (Elt F) :=
  broadcastInDim S100000x40 ![0, 1] bcast_S100000x1_S100000x40_0_1 (broadcastInDim S100000x1 ![0] bcast_S100000_S100000x1_0 (maximumf (broadcastInDim S100000 ![] bcast_S_S100000 (constant S_ .f32 0xFF800000#32)) (Host.reduce FloatOps.maximumf z (constant S_ .f32 0xFF800000#32) reducesTo_S100000x40_S100000_d1 h_S_)))

/-- The row-wise log-softmax: `z - μ - log (∑ exp (z - μ))`, `μ` the row's largest entry. -/
def refLogSoftmax (z : (⟨S100000x40, .f32⟩ : BufTy).Contents (Elt F)) : (⟨S100000x40, .f32⟩ : BufTy).Contents (Elt F) :=
  subf (subf z (refRowMax z)) (broadcastInDim S100000x40 ![0, 1] bcast_S100000x1_S100000x40_0_1 (Host.log (broadcastInDim S100000x1 ![0] bcast_S100000_S100000x1_0 (Host.reduceAdd (Host.exp (subf z (refRowMax z))) (constant S_ .f32 0x00000000#32) reducesTo_S100000x40_S100000_d1 h_S_))))

/-- The whole network with the layers as the host computes them. -/
def refValue (x : (⟨S100000x512, .f32⟩ : BufTy).Contents (Elt F)) (e : (⟨S2x3200000, .i32⟩ : BufTy).Contents (Elt F))
    (w1 : (⟨S512x16, .f32⟩ : BufTy).Contents (Elt F)) (b1 : (⟨S16, .f32⟩ : BufTy).Contents (Elt F))
    (w2 : (⟨S16x40, .f32⟩ : BufTy).Contents (Elt F)) (b2 : (⟨S40, .f32⟩ : BufTy).Contents (Elt F)) :
    (⟨S100000x40, .f32⟩ : BufTy).Contents (Elt F) :=
  refLogSoftmax (refBias40 (agg40 (srcIdx e) (dstIdx e) (norm (srcIdx e) (dstIdx e))
    (refLinear2 (refBiasRelu (agg16 (srcIdx e) (dstIdx e) (norm (srcIdx e) (dstIdx e)) (refLinear1 x w1)) b1) w2)) b2)

/-! ## The layers entry by entry, over the extended reals -/

/-- A vector of `N` entries as a one-row array. -/
def rowMat {N : Nat} (b : (⟨1, ![N]⟩ : Shape).Idx → EReal) : Cert.Spec.Mat 1 N := fun i => b (ix1 (Cert.Spec.colOf i))

/-- The whole network with the layers as the entrywise functions of `Cert.Spec`. -/
def kerValue (x : (⟨S100000x512, .f32⟩ : BufTy).Contents (Elt Ideal)) (e : (⟨S2x3200000, .i32⟩ : BufTy).Contents (Elt Ideal))
    (w1 : (⟨S512x16, .f32⟩ : BufTy).Contents (Elt Ideal)) (b1 : (⟨S16, .f32⟩ : BufTy).Contents (Elt Ideal))
    (w2 : (⟨S16x40, .f32⟩ : BufTy).Contents (Elt Ideal)) (b2 : (⟨S40, .f32⟩ : BufTy).Contents (Elt Ideal)) :
    (⟨S100000x40, .f32⟩ : BufTy).Contents (Elt Ideal) :=
  Cert.Spec.biasLogSoftmax (agg40 (F := Ideal) (srcIdx e) (dstIdx e) (norm (srcIdx e) (dstIdx e))
    (Cert.Spec.matProd (Cert.Spec.biasRelu (agg16 (F := Ideal) (srcIdx e) (dstIdx e) (norm (srcIdx e) (dstIdx e)) (Cert.Spec.matProd x w1)) (rowMat b1)) w2)) (rowMat b2)

end Cert.Glue

end
-- ==== Proof.KWalk.lean ====
/-
  The idealized kernel program's result as one function of its arguments: the buffer contents at each boundary of
  @main, read back through the host operations between the regions. Before the first region the host computes the
  node lists and the edge weights from the edge list; each region leaves in its output array a function of its two
  input arrays (the hypotheses `h0 … h3`: a matrix product, a bias with positive part, a matrix product, a bias with
  log-softmax); between the regions the host gathers, scales and scatter-adds the last region's rows, the same named
  functions on both layers. Nothing here opens a gather, a scatter or a region's body: the walk only follows which
  buffer each operation reads and writes.
-/
import proofs.«178386_j15762529976718_1_alg».proof.Proof.Gen.KernelIdeal.Frame
import proofs.«178386_j15762529976718_1_alg».proof.Proof.Glue
import proofs.«178386_j15762529976718_1_alg».proof.Proof.Spec
import Idealize.ShloMosaic.Lib.StableHlo.Run
import Idealize.ShloMosaic.Lib.Pipeline.Value
import Idealize.ShloMosaic.Lib.ValueLayout
import Idealize.ShloMosaic.Lib.ValueIdx

set_option maxRecDepth 16384

noncomputable section

namespace Cert.KernelIdeal.Walk

open Cert.KernelIdeal Cert.KernelIdeal.Gen
open Idealize.ShloMosaic Idealize.ShloMosaic.TcCoe Idealize.ShloMosaic.StableHlo Idealize.SL.Sem
open Idealize.ShloMosaic.Pipeline (Dat Cfg Window)

/-- Reads `after ops V` at a buffer: the operations' functions of `V` at the buffers they read. -/
local macro "host_read" ops:ident : tactic =>
  `(tactic| (simp only [$ops:ident]; after_results <;> try rfl))

/-- A buffer no operation of the stretch writes keeps its contents. -/
local macro "host_keep" ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

section AnyFamily

variable {F : FTy → Type} [FloatOps F]
variable (m : (ℓ : Loc nD τ sig) → Buf (Elt F) ℓ) (ρ : Dev nD → PrngReg)

/-! ## Before the first region: the node lists and the edge weights -/

theorem W1_v3 (c : Dev nD) : W1 m ρ c (Proc.devRef .tc main_v3) = Cert.Glue.srcIdx (m ((c : Thread nD τ).loc main_arg1)) := by
  show StableHlo.after hostOps0 (W0 m ρ c) (Proc.devRef .tc main_v3) = _
  host_read hostOps0

theorem W1_v6 (c : Dev nD) : W1 m ρ c (Proc.devRef .tc main_v6) = Cert.Glue.dstIdx (m ((c : Thread nD τ).loc main_arg1)) := by
  show StableHlo.after hostOps0 (W0 m ρ c) (Proc.devRef .tc main_v6) = _
  host_read hostOps0

set_option maxHeartbeats 2000000 in
theorem W2_v16 (c : Dev nD) : W2 m ρ c (Proc.devRef .tc main_v16) = Cert.Glue.dinv (Cert.Glue.dstIdx (m ((c : Thread nD τ).loc main_arg1))) := by
  show StableHlo.after hostOps0_1 (StableHlo.after hostOps0 (W0 m ρ c)) (Proc.devRef .tc main_v16) = _
  simp only [hostOps0_1, hostOps0]
  after_results <;> try rfl

theorem W2_keep_v3 (c : Dev nD) : W2 m ρ c (Proc.devRef .tc main_v3) = W1 m ρ c (Proc.devRef .tc main_v3) := by
  show StableHlo.after hostOps0_1 (W1 m ρ c) (Proc.devRef .tc main_v3) = _
  host_keep hostOps0_1
theorem W2_keep_v6 (c : Dev nD) : W2 m ρ c (Proc.devRef .tc main_v6) = W1 m ρ c (Proc.devRef .tc main_v6) := by
  show StableHlo.after hostOps0_1 (W1 m ρ c) (Proc.devRef .tc main_v6) = _
  host_keep hostOps0_1
theorem W3_keep_v3 (c : Dev nD) : W3 m ρ c (Proc.devRef .tc main_v3) = W2 m ρ c (Proc.devRef .tc main_v3) := by
  show StableHlo.after hostOps0_2 (W2 m ρ c) (Proc.devRef .tc main_v3) = _
  host_keep hostOps0_2
theorem W3_keep_v6 (c : Dev nD) : W3 m ρ c (Proc.devRef .tc main_v6) = W2 m ρ c (Proc.devRef .tc main_v6) := by
  show StableHlo.after hostOps0_2 (W2 m ρ c) (Proc.devRef .tc main_v6) = _
  host_keep hostOps0_2

theorem W3_v3 (c : Dev nD) : W3 m ρ c (Proc.devRef .tc main_v3) = Cert.Glue.srcIdx (m ((c : Thread nD τ).loc main_arg1)) :=
  (W3_keep_v3 m ρ c).trans ((W2_keep_v3 m ρ c).trans (W1_v3 m ρ c))
theorem W3_v6 (c : Dev nD) : W3 m ρ c (Proc.devRef .tc main_v6) = Cert.Glue.dstIdx (m ((c : Thread nD τ).loc main_arg1)) :=
  (W3_keep_v6 m ρ c).trans ((W2_keep_v6 m ρ c).trans (W1_v6 m ρ c))

set_option maxHeartbeats 2000000 in
theorem W3_v31 (c : Dev nD) : W3 m ρ c (Proc.devRef .tc main_v31) = Cert.Glue.norm (Cert.Glue.srcIdx (m ((c : Thread nD τ).loc main_arg1))) (Cert.Glue.dstIdx (m ((c : Thread nD τ).loc main_arg1))) := by
  have h16 := W2_v16 m ρ c
  have h3 := (W2_keep_v3 m ρ c).trans (W1_v3 m ρ c)
  have h6 := (W2_keep_v6 m ρ c).trans (W1_v6 m ρ c)
  show StableHlo.after hostOps0_2 (W2 m ρ c) (Proc.devRef .tc main_v31) = _
  generalize W2 m ρ c = V2 at h16 h3 h6 ⊢
  simp only [hostOps0_2]
  after_results
  rw [h16, h3, h6]
  rfl

theorem W1_keep_arg0 (c : Dev nD) : W1 m ρ c (Proc.devRef .tc main_arg0) = W0 m ρ c (Proc.devRef .tc main_arg0) := by
  show StableHlo.after hostOps0 (W0 m ρ c) (Proc.devRef .tc main_arg0) = _
  host_keep hostOps0
theorem W2_keep_arg0 (c : Dev nD) : W2 m ρ c (Proc.devRef .tc main_arg0) = W1 m ρ c (Proc.devRef .tc main_arg0) := by
  show StableHlo.after hostOps0_1 (W1 m ρ c) (Proc.devRef .tc main_arg0) = _
  host_keep hostOps0_1
theorem W3_keep_arg0 (c : Dev nD) : W3 m ρ c (Proc.devRef .tc main_arg0) = W2 m ρ c (Proc.devRef .tc main_arg0) := by
  show StableHlo.after hostOps0_2 (W2 m ρ c) (Proc.devRef .tc main_arg0) = _
  host_keep hostOps0_2
theorem W3_arg0 (c : Dev nD) : W3 m ρ c (Proc.devRef .tc main_arg0) = m ((c : Thread nD τ).loc main_arg0) :=
  (W3_keep_arg0 m ρ c).trans ((W2_keep_arg0 m ρ c).trans ((W1_keep_arg0 m ρ c).trans rfl))

theorem W1_keep_arg2 (c : Dev nD) : W1 m ρ c (Proc.devRef .tc main_arg2) = W0 m ρ c (Proc.devRef .tc main_arg2) := by
  show StableHlo.after hostOps0 (W0 m ρ c) (Proc.devRef .tc main_arg2) = _
  host_keep hostOps0
theorem W2_keep_arg2 (c : Dev nD) : W2 m ρ c (Proc.devRef .tc main_arg2) = W1 m ρ c (Proc.devRef .tc main_arg2) := by
  show StableHlo.after hostOps0_1 (W1 m ρ c) (Proc.devRef .tc main_arg2) = _
  host_keep hostOps0_1
theorem W3_keep_arg2 (c : Dev nD) : W3 m ρ c (Proc.devRef .tc main_arg2) = W2 m ρ c (Proc.devRef .tc main_arg2) := by
  show StableHlo.after hostOps0_2 (W2 m ρ c) (Proc.devRef .tc main_arg2) = _
  host_keep hostOps0_2
theorem W3_arg2 (c : Dev nD) : W3 m ρ c (Proc.devRef .tc main_arg2) = m ((c : Thread nD τ).loc main_arg2) :=
  (W3_keep_arg2 m ρ c).trans ((W2_keep_arg2 m ρ c).trans ((W1_keep_arg2 m ρ c).trans rfl))

theorem W1_keep_arg3 (c : Dev nD) : W1 m ρ c (Proc.devRef .tc main_arg3) = W0 m ρ c (Proc.devRef .tc main_arg3) := by
  show StableHlo.after hostOps0 (W0 m ρ c) (Proc.devRef .tc main_arg3) = _
  host_keep hostOps0
theorem W2_keep_arg3 (c : Dev nD) : W2 m ρ c (Proc.devRef .tc main_arg3) = W1 m ρ c (Proc.devRef .tc main_arg3) := by
  show StableHlo.after hostOps0_1 (W1 m ρ c) (Proc.devRef .tc main_arg3) = _
  host_keep hostOps0_1
theorem W3_keep_arg3 (c : Dev nD) : W3 m ρ c (Proc.devRef .tc main_arg3) = W2 m ρ c (Proc.devRef .tc main_arg3) := by
  show StableHlo.after hostOps0_2 (W2 m ρ c) (Proc.devRef .tc main_arg3) = _
  host_keep hostOps0_2
theorem W3_arg3 (c : Dev nD) : W3 m ρ c (Proc.devRef .tc main_arg3) = m ((c : Thread nD τ).loc main_arg3) :=
  (W3_keep_arg3 m ρ c).trans ((W2_keep_arg3 m ρ c).trans ((W1_keep_arg3 m ρ c).trans rfl))

theorem W1_keep_arg4 (c : Dev nD) : W1 m ρ c (Proc.devRef .tc main_arg4) = W0 m ρ c (Proc.devRef .tc main_arg4) := by
  show StableHlo.after hostOps0 (W0 m ρ c) (Proc.devRef .tc main_arg4) = _
  host_keep hostOps0
theorem W2_keep_arg4 (c : Dev nD) : W2 m ρ c (Proc.devRef .tc main_arg4) = W1 m ρ c (Proc.devRef .tc main_arg4) := by
  show StableHlo.after hostOps0_1 (W1 m ρ c) (Proc.devRef .tc main_arg4) = _
  host_keep hostOps0_1
theorem W3_keep_arg4 (c : Dev nD) : W3 m ρ c (Proc.devRef .tc main_arg4) = W2 m ρ c (Proc.devRef .tc main_arg4) := by
  show StableHlo.after hostOps0_2 (W2 m ρ c) (Proc.devRef .tc main_arg4) = _
  host_keep hostOps0_2
theorem W3_arg4 (c : Dev nD) : W3 m ρ c (Proc.devRef .tc main_arg4) = m ((c : Thread nD τ).loc main_arg4) :=
  (W3_keep_arg4 m ρ c).trans ((W2_keep_arg4 m ρ c).trans ((W1_keep_arg4 m ρ c).trans rfl))

theorem W1_keep_arg5 (c : Dev nD) : W1 m ρ c (Proc.devRef .tc main_arg5) = W0 m ρ c (Proc.devRef .tc main_arg5) := by
  show StableHlo.after hostOps0 (W0 m ρ c) (Proc.devRef .tc main_arg5) = _
  host_keep hostOps0
theorem W2_keep_arg5 (c : Dev nD) : W2 m ρ c (Proc.devRef .tc main_arg5) = W1 m ρ c (Proc.devRef .tc main_arg5) := by
  show StableHlo.after hostOps0_1 (W1 m ρ c) (Proc.devRef .tc main_arg5) = _
  host_keep hostOps0_1
theorem W3_keep_arg5 (c : Dev nD) : W3 m ρ c (Proc.devRef .tc main_arg5) = W2 m ρ c (Proc.devRef .tc main_arg5) := by
  show StableHlo.after hostOps0_2 (W2 m ρ c) (Proc.devRef .tc main_arg5) = _
  host_keep hostOps0_2
theorem W3_arg5 (c : Dev nD) : W3 m ρ c (Proc.devRef .tc main_arg5) = m ((c : Thread nD τ).loc main_arg5) :=
  (W3_keep_arg5 m ρ c).trans ((W2_keep_arg5 m ρ c).trans ((W1_keep_arg5 m ρ c).trans rfl))

/-! ## The first region and the first aggregation -/

theorem W4_keep_v3 (c : Dev nD) : W4 m ρ c (Proc.devRef .tc main_v3) = W3 m ρ c (Proc.devRef .tc main_v3) :=
  W4_of_ne m ρ c main_v3 (by decide)
theorem W4_keep_v6 (c : Dev nD) : W4 m ρ c (Proc.devRef .tc main_v6) = W3 m ρ c (Proc.devRef .tc main_v6) :=
  W4_of_ne m ρ c main_v6 (by decide)
theorem W4_keep_v31 (c : Dev nD) : W4 m ρ c (Proc.devRef .tc main_v31) = W3 m ρ c (Proc.devRef .tc main_v31) :=
  W4_of_ne m ρ c main_v31 (by decide)
theorem W4_keep_arg3 (c : Dev nD) : W4 m ρ c (Proc.devRef .tc main_arg3) = W3 m ρ c (Proc.devRef .tc main_arg3) :=
  W4_of_ne m ρ c main_arg3 (by decide)
theorem W4_keep_arg4 (c : Dev nD) : W4 m ρ c (Proc.devRef .tc main_arg4) = W3 m ρ c (Proc.devRef .tc main_arg4) :=
  W4_of_ne m ρ c main_arg4 (by decide)
theorem W4_keep_arg5 (c : Dev nD) : W4 m ρ c (Proc.devRef .tc main_arg5) = W3 m ρ c (Proc.devRef .tc main_arg5) :=
  W4_of_ne m ρ c main_arg5 (by decide)

theorem W4_v32 (c : Dev nD) : W4 m ρ c (Proc.devRef .tc main_v32) = (dat0 (V3 m ρ) c).arrAt 2 cfg0.N := W4_arr m ρ c 2

set_option maxHeartbeats 2000000 in
theorem W5_v45 (c : Dev nD) : W5 m ρ c (Proc.devRef .tc main_v45)
    = Cert.Glue.agg16 (W4 m ρ c (Proc.devRef .tc main_v3)) (W4 m ρ c (Proc.devRef .tc main_v6)) (W4 m ρ c (Proc.devRef .tc main_v31)) (W4 m ρ c (Proc.devRef .tc main_v32)) := by
  show StableHlo.after hostOps1 (W4 m ρ c) (Proc.devRef .tc main_v45) = _
  host_read hostOps1

theorem W5_keep_v3 (c : Dev nD) : W5 m ρ c (Proc.devRef .tc main_v3) = W4 m ρ c (Proc.devRef .tc main_v3) := by
  show StableHlo.after hostOps1 (W4 m ρ c) (Proc.devRef .tc main_v3) = _
  host_keep hostOps1
theorem W5_keep_v6 (c : Dev nD) : W5 m ρ c (Proc.devRef .tc main_v6) = W4 m ρ c (Proc.devRef .tc main_v6) := by
  show StableHlo.after hostOps1 (W4 m ρ c) (Proc.devRef .tc main_v6) = _
  host_keep hostOps1
theorem W5_keep_v31 (c : Dev nD) : W5 m ρ c (Proc.devRef .tc main_v31) = W4 m ρ c (Proc.devRef .tc main_v31) := by
  show StableHlo.after hostOps1 (W4 m ρ c) (Proc.devRef .tc main_v31) = _
  host_keep hostOps1
theorem W5_keep_arg3 (c : Dev nD) : W5 m ρ c (Proc.devRef .tc main_arg3) = W4 m ρ c (Proc.devRef .tc main_arg3) := by
  show StableHlo.after hostOps1 (W4 m ρ c) (Proc.devRef .tc main_arg3) = _
  host_keep hostOps1
theorem W5_keep_arg4 (c : Dev nD) : W5 m ρ c (Proc.devRef .tc main_arg4) = W4 m ρ c (Proc.devRef .tc main_arg4) := by
  show StableHlo.after hostOps1 (W4 m ρ c) (Proc.devRef .tc main_arg4) = _
  host_keep hostOps1
theorem W5_keep_arg5 (c : Dev nD) : W5 m ρ c (Proc.devRef .tc main_arg5) = W4 m ρ c (Proc.devRef .tc main_arg5) := by
  show StableHlo.after hostOps1 (W4 m ρ c) (Proc.devRef .tc main_arg5) = _
  host_keep hostOps1

/-! ## The second and third regions, and the second aggregation -/

theorem W6_keep_v3 (c : Dev nD) : W6 m ρ c (Proc.devRef .tc main_v3) = W5 m ρ c (Proc.devRef .tc main_v3) :=
  W6_of_ne m ρ c main_v3 (by decide)
theorem W6_keep_v6 (c : Dev nD) : W6 m ρ c (Proc.devRef .tc main_v6) = W5 m ρ c (Proc.devRef .tc main_v6) :=
  W6_of_ne m ρ c main_v6 (by decide)
theorem W6_keep_v31 (c : Dev nD) : W6 m ρ c (Proc.devRef .tc main_v31) = W5 m ρ c (Proc.devRef .tc main_v31) :=
  W6_of_ne m ρ c main_v31 (by decide)
theorem W6_keep_arg4 (c : Dev nD) : W6 m ρ c (Proc.devRef .tc main_arg4) = W5 m ρ c (Proc.devRef .tc main_arg4) :=
  W6_of_ne m ρ c main_arg4 (by decide)
theorem W6_keep_arg5 (c : Dev nD) : W6 m ρ c (Proc.devRef .tc main_arg5) = W5 m ρ c (Proc.devRef .tc main_arg5) :=
  W6_of_ne m ρ c main_arg5 (by decide)
theorem W6_v47 (c : Dev nD) : W6 m ρ c (Proc.devRef .tc main_v47) = (dat1 (V5 m ρ) c).arrAt 2 cfg1.N := W6_arr m ρ c 2

theorem W7_keep_v3 (c : Dev nD) : W7 m ρ c (Proc.devRef .tc main_v3) = W6 m ρ c (Proc.devRef .tc main_v3) :=
  W7_of_ne m ρ c main_v3 (by decide)
theorem W7_keep_v6 (c : Dev nD) : W7 m ρ c (Proc.devRef .tc main_v6) = W6 m ρ c (Proc.devRef .tc main_v6) :=
  W7_of_ne m ρ c main_v6 (by decide)
theorem W7_keep_v31 (c : Dev nD) : W7 m ρ c (Proc.devRef .tc main_v31) = W6 m ρ c (Proc.devRef .tc main_v31) :=
  W7_of_ne m ρ c main_v31 (by decide)
theorem W7_keep_arg5 (c : Dev nD) : W7 m ρ c (Proc.devRef .tc main_arg5) = W6 m ρ c (Proc.devRef .tc main_arg5) :=
  W7_of_ne m ρ c main_arg5 (by decide)
theorem W7_v48 (c : Dev nD) : W7 m ρ c (Proc.devRef .tc main_v48) = (dat2 (V6 m ρ) c).arrAt 2 cfg2.N := W7_arr m ρ c 2

set_option maxHeartbeats 2000000 in
theorem W8_v61 (c : Dev nD) : W8 m ρ c (Proc.devRef .tc main_v61)
    = Cert.Glue.agg40 (W7 m ρ c (Proc.devRef .tc main_v3)) (W7 m ρ c (Proc.devRef .tc main_v6)) (W7 m ρ c (Proc.devRef .tc main_v31)) (W7 m ρ c (Proc.devRef .tc main_v48)) := by
  show StableHlo.after hostOps3 (W7 m ρ c) (Proc.devRef .tc main_v61) = _
  host_read hostOps3

theorem W8_keep_arg5 (c : Dev nD) : W8 m ρ c (Proc.devRef .tc main_arg5) = W7 m ρ c (Proc.devRef .tc main_arg5) := by
  show StableHlo.after hostOps3 (W7 m ρ c) (Proc.devRef .tc main_arg5) = _
  host_keep hostOps3

theorem W9_v63 (c : Dev nD) : W9 m ρ c (Proc.devRef .tc main_v63) = (dat3 (V8 m ρ) c).arrAt 2 cfg3.N := W9_arr m ρ c 2

end AnyFamily

section ExtendedReals

open Idealize.ShloMosaic.ValueIdx

variable (m : (ℓ : Loc nD τ sig) → Buf (Elt Ideal) ℓ) (ρ : Dev nD → PrngReg)

/-- A vector of `N` entries cast to one row of `N` entries is that row. -/
theorem shapeCast_row {N : Nat} (b : (⟨1, ![N]⟩ : Shape).Idx → EReal) (h : (⟨1, ![N]⟩ : Shape).ShapeCasts ⟨2, ![1, N]⟩) :
    shapeCast ⟨2, ![1, N]⟩ b h = Cert.Glue.rowMat b := by
  funext i
  obtain ⟨u, q, rfl⟩ : ∃ (u : Fin 1) (q : Fin N), i = ix2 u q := ⟨i 0, i 1, eq_ix2 i⟩
  rw [shapeCast_a_1a_apply]
  rfl

/-- The first bias as the one-row array the second region reads. -/
theorem W5_v46 (c : Dev nD) : W5 m ρ c (Proc.devRef .tc main_v46) = Cert.Glue.rowMat (W4 m ρ c (Proc.devRef .tc main_arg3)) := by
  show StableHlo.after hostOps1 (W4 m ρ c) (Proc.devRef .tc main_v46) = _
  simp only [hostOps1]
  after_results
  exact shapeCast_row _ _

/-- The second bias as the one-row array the fourth region reads. -/
theorem W8_v62 (c : Dev nD) : W8 m ρ c (Proc.devRef .tc main_v62) = Cert.Glue.rowMat (W7 m ρ c (Proc.devRef .tc main_arg5)) := by
  show StableHlo.after hostOps3 (W7 m ρ c) (Proc.devRef .tc main_v62) = _
  simp only [hostOps3]
  after_results
  exact shapeCast_row _ _

/-- The result buffer at the last boundary is the network of the arguments, given what each region leaves in its
    output array. -/
theorem result
    (h0 : ∀ (V : (c : Dev nD) → (b : Ref sig .tc) → Buf (Elt Ideal) ((c : Thread nD τ).loc b)) (c : Dev nD),
      (dat0 (F := Ideal) V c).arrAt 2 cfg0.N = Cert.Spec.matProd (V c main_arg0) (V c main_arg2))
    (h1 : ∀ (V : (c : Dev nD) → (b : Ref sig .tc) → Buf (Elt Ideal) ((c : Thread nD τ).loc b)) (c : Dev nD),
      (dat1 (F := Ideal) V c).arrAt 2 cfg1.N = Cert.Spec.biasRelu (V c main_v45) (V c main_v46))
    (h2 : ∀ (V : (c : Dev nD) → (b : Ref sig .tc) → Buf (Elt Ideal) ((c : Thread nD τ).loc b)) (c : Dev nD),
      (dat2 (F := Ideal) V c).arrAt 2 cfg2.N = Cert.Spec.matProd (V c main_v47) (V c main_arg4))
    (h3 : ∀ (V : (c : Dev nD) → (b : Ref sig .tc) → Buf (Elt Ideal) ((c : Thread nD τ).loc b)) (c : Dev nD),
      (dat3 (F := Ideal) V c).arrAt 2 cfg3.N = Cert.Spec.biasLogSoftmax (V c main_v61) (V c main_v62))
    (c : Dev nD) :
    W9 m ρ c (Proc.devRef .tc main_v63)
      = Cert.Glue.kerValue (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  -- the node lists and the edge weights reach every later boundary unchanged
  have s4 : W4 m ρ c (Proc.devRef .tc main_v3) = (Cert.Glue.srcIdx (m ((c : Thread nD τ).loc main_arg1))) := (W4_keep_v3 m ρ c).trans (W3_v3 m ρ c)
  have d4 : W4 m ρ c (Proc.devRef .tc main_v6) = (Cert.Glue.dstIdx (m ((c : Thread nD τ).loc main_arg1))) := (W4_keep_v6 m ρ c).trans (W3_v6 m ρ c)
  have n4 : W4 m ρ c (Proc.devRef .tc main_v31) = (Cert.Glue.norm (Cert.Glue.srcIdx (m ((c : Thread nD τ).loc main_arg1))) (Cert.Glue.dstIdx (m ((c : Thread nD τ).loc main_arg1)))) := (W4_keep_v31 m ρ c).trans (W3_v31 m ρ c)
  have s7 : W7 m ρ c (Proc.devRef .tc main_v3) = (Cert.Glue.srcIdx (m ((c : Thread nD τ).loc main_arg1))) :=
    (W7_keep_v3 m ρ c).trans ((W6_keep_v3 m ρ c).trans ((W5_keep_v3 m ρ c).trans s4))
  have d7 : W7 m ρ c (Proc.devRef .tc main_v6) = (Cert.Glue.dstIdx (m ((c : Thread nD τ).loc main_arg1))) :=
    (W7_keep_v6 m ρ c).trans ((W6_keep_v6 m ρ c).trans ((W5_keep_v6 m ρ c).trans d4))
  have n7 : W7 m ρ c (Proc.devRef .tc main_v31) = (Cert.Glue.norm (Cert.Glue.srcIdx (m ((c : Thread nD τ).loc main_arg1))) (Cert.Glue.dstIdx (m ((c : Thread nD τ).loc main_arg1)))) :=
    (W7_keep_v31 m ρ c).trans ((W6_keep_v31 m ρ c).trans ((W5_keep_v31 m ρ c).trans n4))
  -- the first layer
  have r0 : W4 m ρ c (Proc.devRef .tc main_v32) = Cert.Spec.matProd (m ((c : Thread nD τ).loc main_arg0)) (m ((c : Thread nD τ).loc main_arg2)) := by
    rw [W4_v32, h0]
    show Cert.Spec.matProd (W3 m ρ c (Proc.devRef .tc main_arg0)) (W3 m ρ c (Proc.devRef .tc main_arg2)) = _
    rw [W3_arg0, W3_arg2]
  have a1 : W5 m ρ c (Proc.devRef .tc main_v45) = Cert.Glue.agg16 (Cert.Glue.srcIdx (m ((c : Thread nD τ).loc main_arg1))) (Cert.Glue.dstIdx (m ((c : Thread nD τ).loc main_arg1))) (Cert.Glue.norm (Cert.Glue.srcIdx (m ((c : Thread nD τ).loc main_arg1))) (Cert.Glue.dstIdx (m ((c : Thread nD τ).loc main_arg1)))) (Cert.Spec.matProd (m ((c : Thread nD τ).loc main_arg0)) (m ((c : Thread nD τ).loc main_arg2))) := by
    rw [W5_v45, s4, d4, n4, r0]
  have b1 : W5 m ρ c (Proc.devRef .tc main_v46) = Cert.Glue.rowMat (m ((c : Thread nD τ).loc main_arg3)) := by
    rw [W5_v46, W4_keep_arg3, W3_arg3]
  have r1 : W6 m ρ c (Proc.devRef .tc main_v47)
      = Cert.Spec.biasRelu (Cert.Glue.agg16 (Cert.Glue.srcIdx (m ((c : Thread nD τ).loc main_arg1))) (Cert.Glue.dstIdx (m ((c : Thread nD τ).loc main_arg1))) (Cert.Glue.norm (Cert.Glue.srcIdx (m ((c : Thread nD τ).loc main_arg1))) (Cert.Glue.dstIdx (m ((c : Thread nD τ).loc main_arg1)))) (Cert.Spec.matProd (m ((c : Thread nD τ).loc main_arg0)) (m ((c : Thread nD τ).loc main_arg2)))) (Cert.Glue.rowMat (m ((c : Thread nD τ).loc main_arg3))) := by
    rw [W6_v47, h1]
    show Cert.Spec.biasRelu (W5 m ρ c (Proc.devRef .tc main_v45)) (W5 m ρ c (Proc.devRef .tc main_v46)) = _
    rw [a1, b1]
  -- the second layer
  have w2 : W6 m ρ c (Proc.devRef .tc main_arg4) = (m ((c : Thread nD τ).loc main_arg4)) :=
    (W6_keep_arg4 m ρ c).trans ((W5_keep_arg4 m ρ c).trans ((W4_keep_arg4 m ρ c).trans (W3_arg4 m ρ c)))
  have r2 : W7 m ρ c (Proc.devRef .tc main_v48)
      = Cert.Spec.matProd (Cert.Spec.biasRelu (Cert.Glue.agg16 (Cert.Glue.srcIdx (m ((c : Thread nD τ).loc main_arg1))) (Cert.Glue.dstIdx (m ((c : Thread nD τ).loc main_arg1))) (Cert.Glue.norm (Cert.Glue.srcIdx (m ((c : Thread nD τ).loc main_arg1))) (Cert.Glue.dstIdx (m ((c : Thread nD τ).loc main_arg1)))) (Cert.Spec.matProd (m ((c : Thread nD τ).loc main_arg0)) (m ((c : Thread nD τ).loc main_arg2)))) (Cert.Glue.rowMat (m ((c : Thread nD τ).loc main_arg3)))) (m ((c : Thread nD τ).loc main_arg4)) := by
    rw [W7_v48, h2]
    show Cert.Spec.matProd (W6 m ρ c (Proc.devRef .tc main_v47)) (W6 m ρ c (Proc.devRef .tc main_arg4)) = _
    rw [r1, w2]
  have a2 : W8 m ρ c (Proc.devRef .tc main_v61) = Cert.Glue.agg40 (Cert.Glue.srcIdx (m ((c : Thread nD τ).loc main_arg1))) (Cert.Glue.dstIdx (m ((c : Thread nD τ).loc main_arg1))) (Cert.Glue.norm (Cert.Glue.srcIdx (m ((c : Thread nD τ).loc main_arg1))) (Cert.Glue.dstIdx (m ((c : Thread nD τ).loc main_arg1))))
      (Cert.Spec.matProd (Cert.Spec.biasRelu (Cert.Glue.agg16 (Cert.Glue.srcIdx (m ((c : Thread nD τ).loc main_arg1))) (Cert.Glue.dstIdx (m ((c : Thread nD τ).loc main_arg1))) (Cert.Glue.norm (Cert.Glue.srcIdx (m ((c : Thread nD τ).loc main_arg1))) (Cert.Glue.dstIdx (m ((c : Thread nD τ).loc main_arg1)))) (Cert.Spec.matProd (m ((c : Thread nD τ).loc main_arg0)) (m ((c : Thread nD τ).loc main_arg2)))) (Cert.Glue.rowMat (m ((c : Thread nD τ).loc main_arg3)))) (m ((c : Thread nD τ).loc main_arg4))) := by
    rw [W8_v61, s7, d7, n7, r2]
  have b2 : W8 m ρ c (Proc.devRef .tc main_v62) = Cert.Glue.rowMat (m ((c : Thread nD τ).loc main_arg5)) := by
    rw [W8_v62, W7_keep_arg5, W6_keep_arg5, W5_keep_arg5, W4_keep_arg5, W3_arg5]
  rw [W9_v63, h3]
  show Cert.Spec.biasLogSoftmax (W8 m ρ c (Proc.devRef .tc main_v61)) (W8 m ρ c (Proc.devRef .tc main_v62)) = _
  rw [a2, b2]
  rfl

end ExtendedReals

end Cert.KernelIdeal.Walk

end
-- ==== Proof.LibRowDims.lean ====
/-
  Dimension numbers over symbolic extents, each read in coordinates:
  * a plain contraction `[M, K] × [K, N]` is the sum over the contracted coordinate;
  * a row gather — `x[idx]` of a table `[N, C]` at start indices `[R, 1]` — reads row `idx r` of the table,
    the start index taken signed and clamped into `[0, N − 1]`;
  * a row scatter-add into a table `[N, C]` adds update row `r` at row `idx r` of the table when that row exists
    (the start index taken signed, not clamped) and nowhere otherwise, so the entry `(a, b)` of the result is the
    table's entry plus the sum of the updates' entries `(r, b)` over the rows `r` with `idx r = a`.
-/
import Idealize.ShloMosaic.PureOps.Ideal
import Idealize.ShloMosaic.PureOps.Ideal.Laws
import Idealize.ShloMosaic.Lib.ValueIdx

noncomputable section

open scoped BigOperators

namespace Idealize.ShloMosaic.RowDims

open Idealize.ShloMosaic Idealize.ShloMosaic.ValueIdx

/-! ## A plain contraction -/

/-- The left operand's row coordinate is the output's row, whatever the contraction position. -/
theorem plain_lhsIdx_row {M K N : Nat} (p : Fin M) (q : Fin N) (k : (DotDims.plain M K N).contr.Idx) :
    ((DotDims.plain M K N).lhsIdx (ix2 p q) k 0).val = p.val := rfl

/-- The right operand's column coordinate is the output's column, whatever the contraction position. -/
theorem plain_rhsIdx_col {M K N : Nat} (p : Fin M) (q : Fin N) (k : (DotDims.plain M K N).contr.Idx) :
    ((DotDims.plain M K N).rhsIdx (ix2 p q) k 1).val = q.val := rfl

/-- The contraction sum of `DotDims.plain M K N` at the output entry `(p, q)` runs over the `K` products
    `lhs (p, k) · rhs (k, q)`. -/
theorem plain_sum {M K N : Nat} (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  -- re-index the sum by the one contracted coordinate
  rw [← Equiv.sum_comp (contrEquiv1 (DotDims.plain M K N) K rfl rfl).symm]
  refine Finset.sum_congr rfl fun k _ => ?_
  -- the left operand is read at (p, k): its row from the output, its column the contracted coordinate
  have hl : (DotDims.plain M K N).lhsIdx (ix2 p q) ((contrEquiv1 (DotDims.plain M K N) K rfl rfl).symm k) = ix2 p k := by
    funext a
    refine Fin.ext ?_
    match a with
    | ⟨0, _⟩ => exact plain_lhsIdx_row p q _
    | ⟨1, _⟩ =>
      exact ((DotDims.plain M K N).lhsIdx_val_of_single (cl := 1) rfl _ _).trans
        (contrEquiv1_symm_val (DotDims.plain M K N) K rfl rfl k)
  -- the right operand is read at (k, q): its row the contracted coordinate, its column from the output
  have hr : (DotDims.plain M K N).rhsIdx (ix2 p q) ((contrEquiv1 (DotDims.plain M K N) K rfl rfl).symm k) = ix2 k q := by
    funext a
    refine Fin.ext ?_
    match a with
    | ⟨0, _⟩ =>
      exact ((DotDims.plain M K N).rhsIdx_val_of_single (cr := 0) rfl _ _).trans
        (contrEquiv1_symm_val (DotDims.plain M K N) K rfl rfl k)
    | ⟨1, _⟩ => exact plain_rhsIdx_col p q _
  rw [hl, hr]

/-- A matrix-unit product into the zero accumulator, at the ideal values, entry by entry. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's product of the same operands, at the ideal values, entry by entry: the same sum. -/
theorem dotGeneral_plain_apply {M K N : Nat} {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

/-! ## A row gather -/

/-- The dimension numbers of `x[idx]` for a table `[N, C]`, start indices `[R, 1]` and result `[R, C]`. -/
abbrev rowGather (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The table row a start index selects: the index read signed and clamped into `[0, N − 1]`. -/
def clampRow (N : Nat) (hN : 0 < N) {w : Nat} (v : BitVec w) : Fin N := ⟨min v.toInt.toNat (N - 1), by omega⟩

/-- The result entry `(r, c)` reads its one start-index component at `(r, 0)` of the start indices. -/
theorem rowGather_siIdx {N C R : Nat}
    (wf : GatherDims.WF ⟨2, ![N, C]⟩ ⟨2, ![R, 1]⟩ ⟨2, ![R, C]⟩ [1] [0] [] [0] [] 1 ![1, C]) (r : Fin R) (c : Fin C) :
    (rowGather N C R wf).siIdx (ix2 r c) ⟨List.idxOf (0 : Fin 2) (rowGather N C R wf).startIndexMap,
      List.idxOf_lt_length_iff.2 (List.mem_singleton.mpr rfl)⟩ = ix2 r 0 := by
  funext b; refine Fin.ext ?_
  match b with
  | ⟨0, _⟩ => rfl
  | ⟨1, _⟩ => rfl

/-- On the table's row axis (collapsed, named by the start index map) the operand index is the clamped start alone:
    no batching coordinate, no offset coordinate, and the slice size `1` leaves the clamp's upper bound `N − 1`. -/
theorem rowGather_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 0).val = (clampRow N hN (idx (ix2 r 0))).val := by
  show (rowGather N C R wf).start (ix2 r c) idx 0 + (rowGather N C R wf).batchCoord (ix2 r c) 0
    + (rowGather N C R wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N C R wf).startIndexMap from List.mem_singleton.mpr rfl)]
  rw [rowGather_siIdx wf r c]
  rfl

/-- On the table's column axis (the offset axis, not named by the start index map) the operand index is the offset
    coordinate alone: the result's column. -/
theorem rowGather_operandIdx_col {N C R w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 1).val = c.val := by
  show (rowGather N C R wf).start (ix2 r c) idx 1 + (rowGather N C R wf).batchCoord (ix2 r c) 1
    + (rowGather N C R wf).offCoord (ix2 r c) 1 = _
  rw [GatherDims.batchCoord_eq_zero _ _ _ List.not_mem_nil]
  unfold GatherDims.start
  rw [dif_neg (show ¬ (1 : Fin 2) ∈ (rowGather N C R wf).startIndexMap from
    fun h => absurd (congrArg Fin.val (List.mem_singleton.mp h)) Nat.one_ne_zero)]
  simp only [Nat.add_zero, Nat.zero_add]
  rfl

/-- The gather read at `(r, c)`: the table at row `clampRow (idx (r, 0))`, column `c`. -/
theorem rowGather_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGather N C R wf) x idx (ix2 r c) = x (ix2 (clampRow N hN (idx (ix2 r 0))) c) := by
  unfold Host.gather
  congr 1
  funext a
  refine Fin.ext ?_
  match a with
  | ⟨0, _⟩ => exact rowGather_operandIdx_row hN wf idx r c
  | ⟨1, _⟩ => exact rowGather_operandIdx_col wf idx r c

/-! ## A row scatter-add -/

/-- The dimension numbers of `x.at[idx].add(u)` for a table `[N, C]`, scatter indices `[R, 1]` and updates `[R, C]`. -/
abbrev rowScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The update entry `(r, c)` reads its one start-index component at `(r, 0)` of the scatter indices. -/
theorem rowScatter_siIdx {N C R : Nat}
    (wf : ScatterDims.WF ⟨2, ![N, C]⟩ ⟨2, ![R, 1]⟩ ⟨2, ![R, C]⟩ [1] [0] [0] 1) (r : Fin R) (c : Fin C) :
    (rowScatter N C R wf).siIdx (ix2 r c) ⟨List.idxOf (0 : Fin 2) (rowScatter N C R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

/-- On the table's row axis the window starts at the scatter index of the update's row, read signed. -/
theorem rowScatter_start_row {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 0 = (idx (ix2 r 0)).toInt := by
  unfold ScatterDims.start
  rw [dif_pos (show (0 : Fin 2) ∈ (rowScatter N C R wf).scatterDimsToOperandDims from List.mem_singleton.mpr rfl),
    rowScatter_siIdx wf r c]

/-- On the table's column axis, which the scatter index does not name, the window starts at `0`. -/
theorem rowScatter_start_col {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 1 = 0 := by
  unfold ScatterDims.start
  rw [dif_neg (show ¬ (1 : Fin 2) ∈ (rowScatter N C R wf).scatterDimsToOperandDims from
    fun h => absurd (congrArg Fin.val (List.mem_singleton.mp h)) Nat.one_ne_zero)]

/-- The row axis is an inserted axis: its window coordinate is `0`. -/
theorem rowScatter_window_row {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 0 = 0 := rfl

/-- The column axis carries the update's window axis: its window coordinate is the update's column. -/
theorem rowScatter_window_col {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 1 = c.val := rfl

/-- Update entry `(r, c)` lands on table entry `(a, b)` exactly when its start index, read signed, is `a` and `c = b`. -/
theorem rowScatter_resultIdx?_eq_some_iff {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) (a : Fin N) (b : Fin C) :
    (rowScatter N C R wf).resultIdx? (ix2 r c) idx = some (ix2 a b) ↔ (idx (ix2 r 0)).toInt = (a.val : Int) ∧ c = b := by
  have hs0 := rowScatter_start_row wf idx r c
  have hs1 := rowScatter_start_col wf idx r c
  have hw0 := rowScatter_window_row wf r c
  have hw1 := rowScatter_window_col wf r c
  unfold ScatterDims.resultIdx?
  constructor
  · -- landed at (a, b): the window is inside the table, and its two coordinates are a and b
    intro h
    split at h
    · rename_i hin
      have hf := Option.some.inj h
      have e0 := congrArg (fun f => (f 0).val) hf
      have e1 := congrArg (fun f => (f 1).val) hf
      simp only [hs0, hs1, hw0, hw1] at e0 e1
      have h0 := hin 0
      rw [hs0, hw0] at h0
      have ea : ((ix2 a b : (⟨2, ![N, C]⟩ : Shape).Idx) 0).val = a.val := rfl
      have eb : ((ix2 a b : (⟨2, ![N, C]⟩ : Shape).Idx) 1).val = b.val := rfl
      rw [ea] at e0
      rw [eb] at e1
      refine ⟨by omega, Fin.ext (by omega)⟩
    · exact absurd h (by simp)
  · -- the start index is a row of the table and the column is kept: the window is inside, at (a, c)
    rintro ⟨hv, rfl⟩
    have hin : ∀ a' : Fin 2, 0 ≤ (rowScatter N C R wf).start (ix2 r c) idx a' + (rowScatter N C R wf).window (ix2 r c) a'
        ∧ (rowScatter N C R wf).start (ix2 r c) idx a' + (rowScatter N C R wf).window (ix2 r c) a' < (⟨2, ![N, C]⟩ : Shape).size a' := by
      intro a'
      match a' with
      | ⟨0, _⟩ =>
        show 0 ≤ (rowScatter N C R wf).start (ix2 r c) idx 0 + (rowScatter N C R wf).window (ix2 r c) 0
          ∧ (rowScatter N C R wf).start (ix2 r c) idx 0 + (rowScatter N C R wf).window (ix2 r c) 0 < (N : Int)
        rw [hs0, hw0, hv]; have := a.isLt; constructor <;> omega
      | ⟨1, _⟩ =>
        show 0 ≤ (rowScatter N C R wf).start (ix2 r c) idx 1 + (rowScatter N C R wf).window (ix2 r c) 1
          ∧ (rowScatter N C R wf).start (ix2 r c) idx 1 + (rowScatter N C R wf).window (ix2 r c) 1 < (C : Int)
        rw [hs1, hw1]; have := c.isLt; constructor <;> omega
    rw [dif_pos hin]
    congr 1
    funext a'
    refine Fin.ext ?_
    match a' with
    | ⟨0, _⟩ =>
      show ((rowScatter N C R wf).start (ix2 r c) idx 0 + (rowScatter N C R wf).window (ix2 r c) 0).toNat = a.val
      rw [hs0, hw0, hv]; omega
    | ⟨1, _⟩ =>
      show ((rowScatter N C R wf).start (ix2 r c) idx 1 + (rowScatter N C R wf).window (ix2 r c) 1).toNat = c.val
      rw [hs1, hw1]; omega

/-- The accumulated table at `(a, b)`: the table's entry plus the updates' entries `(r, b)` over the rows whose start
    index is `a`. -/
theorem rowScatterAdd_apply {N C R w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (a : Fin N) (b : Fin C) :
    Ideal.hostScatterAdd (rowScatter N C R wf) x idx upd (ix2 a b)
      = x (ix2 a b) + ∑ r : Fin R, if (idx (ix2 r 0)).toInt = (a.val : Int) then upd (ix2 r b) else 0 := by
  unfold Ideal.hostScatterAdd
  congr 1
  -- the sum over the update entries that land on (a, b), as a double sum over their rows and columns
  rw [Finset.sum_filter, sum_idx2]
  refine Finset.sum_congr rfl fun r _ => ?_
  simp only [rowScatter_resultIdx?_eq_some_iff]
  -- row r contributes its entry in column b when its start index is a, and nothing otherwise
  by_cases hv : (idx (ix2 r 0)).toInt = (a.val : Int)
  · simp only [hv, true_and, if_true]
    rw [Finset.sum_ite_eq' Finset.univ b (fun c => upd (ix2 r c)), if_pos (Finset.mem_univ b)]
  · simp only [hv, false_and, if_false]
    exact Finset.sum_const_zero

end Idealize.ShloMosaic.RowDims

end
-- ==== Proof.Region0.lean ====
/-
  The first region: the rows of x, 2000 at a time, times the whole of W1. Whatever the arrays hold when the region is entered, its output array ends as their matrix product.
-/
import proofs.«178386_j15762529976718_1_alg».proof.Proof.Gen.KernelIdeal.Frame
import proofs.«178386_j15762529976718_1_alg».proof.Proof.Spec
import proofs.«178386_j15762529976718_1_alg».proof.Proof.LibRowDims
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offsets of a whole-buffer access, however spelt. -/
theorem zero_offsets : (![0, 0] : Fin 2 → Nat) = fun _ => 0 := funext fun a => by fin_cases a <;> rfl

/-- The printed contraction is the plain one: rows of the left operand against columns of the right. -/
theorem dims_plain : dot_S2000x512_S512x16_S2000x16_1_0_0_1_n_n = DotDims.plain 2000 512 16 := rfl

/-- The body's product at an entry (p, q) of the block: the sum over the 512 contracted coordinates of the left block's
    row p against the right block's column q; the narrowing of the operands is the identity on extended reals. -/
theorem product_apply (x0 : Vec Ideal S2000x512 .f32) (x1 : Vec Ideal S512x16 .f32) (p : Fin 2000) (q : Fin 16) :
    k0_pay1 x0 x1 (ix2 p q) = ∑ k : Fin 512, x0 (ix2 p k) * x1 (ix2 k q) := by
  unfold k0_pay1
  rw [dims_plain]
  exact RowDims.matmul_plain_zero_apply none _ _ p q

/-- The block indices over the grid: at point t the left operand's and the output's block is the t-th block of rows,
    the right operand's block is the whole array. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point t is rows 2000 t … 2000 t + 1999 of x. -/
theorem left_block_apply (c : Dev nD) (t : Fin cfg0.N) (p : Fin 2000) (k : Fin 512) (r : Fin 100000)
    (hr : r.val = 2000 * t.val + p.val) :
    (iblk0 V c 0 t : Vec Ideal S2000x512 .f32) (ix2 p k) = (V c main_arg0 : S100000x512.Idx → EReal) (ix2 r k) := by
  obtain ⟨e0, e1, -⟩ := block_indices t
  unfold iblk0
  rw [View.read_apply]
  show V c main_arg0 _ = V c main_arg0 _
  congr 1
  funext a
  apply Fin.ext
  match a with
  | ⟨0, _⟩ => show win0_0.index t (0 : Fin 2) * 2000 + 1 * p.val = r.val; rw [e0, hr]; omega
  | ⟨1, _⟩ => show win0_0.index t (1 : Fin 2) * 512 + 1 * k.val = k.val; rw [e1]; omega

/-- The right operand's block at every point is the whole of W1. -/
theorem right_block_apply (c : Dev nD) (t : Fin cfg0.N) (k : Fin 512) (q : Fin 16) :
    (iblk0 V c 1 t : Vec Ideal S512x16 .f32) (ix2 k q) = (V c main_arg2 : S512x16.Idx → EReal) (ix2 k q) := by
  obtain ⟨-, -, e0, e1, -⟩ := block_indices t
  unfold iblk0
  rw [View.read_apply]
  show V c main_arg2 _ = V c main_arg2 _
  congr 1
  funext a
  apply Fin.ext
  match a with
  | ⟨0, _⟩ => show win0_1.index t (0 : Fin 2) * 512 + 1 * k.val = k.val; rw [e0]; omega
  | ⟨1, _⟩ => show win0_1.index t (1 : Fin 2) * 16 + 1 * q.val = q.val; rw [e1]; omega

/-- What point t writes back is block t of the product of the two arrays as the region finds them. -/
theorem written_block (c : Dev nD) (t : Fin cfg0.N) :
    (dat0 (F := Ideal) V c).flushed 2 t
      = ((cfg0.win 2).blk t).view.read (Elt Ideal) (Cert.Spec.matProd (V c main_arg0) (V c main_arg2)) := by
  show (cfg0.win 2).cut (grid0.coords t) ((dat0 (F := Ideal) V c).after 2 t) = _
  rw [after0_2]
  unfold out0_2
  rw [View.canon_unit_zero zero_offsets]
  simp only [View.ld_unit_zero (S := S2000x512) zero_offsets, View.ld_unit_zero (S := S512x16) zero_offsets]
  obtain ⟨-, -, -, -, e0, e1⟩ := block_indices t
  have hN : grid0.N = 50 := N_0
  have ht : t.val < 50 := hN ▸ t.isLt
  funext j
  obtain ⟨p, q, rfl⟩ : ∃ (p : Fin 2000) (q : Fin 16), j = ix2 p q := ⟨j 0, j 1, eq_ix2 j⟩
  -- the entry (p, q) of the block sits at row 2000 t + p, column q of the array
  have hemb : ((cfg0.win 2).blk t).view.emb (ix2 p q)
      = (ix2 (⟨2000 * t.val + p.val, by have := p.isLt; omega⟩ : Fin 100000) q : S100000x16.Idx) := by
    funext a
    apply Fin.ext
    match a with
    | ⟨0, _⟩ => show win0_2.index t (0 : Fin 2) * 2000 + 1 * p.val = 2000 * t.val + p.val; rw [e0]; omega
    | ⟨1, _⟩ => show win0_2.index t (1 : Fin 2) * 16 + 1 * q.val = q.val; rw [e1]; omega
  show k0_pay1 (iblk0 V c 0 t) (iblk0 V c 1 t) (ix2 p q)
    = Cert.Spec.matProd (V c main_arg0) (V c main_arg2) (((cfg0.win 2).blk t).view.emb (ix2 p q))
  rw [hemb, Cert.Spec.matProd_apply]
  refine (product_apply _ _ p q).trans (Finset.sum_congr rfl fun k _ => ?_)
  rw [left_block_apply V c t p k ⟨2000 * t.val + p.val, by have := p.isLt; omega⟩ rfl, right_block_apply V c t k q]

/-- An entry of the array is in point t's block iff each coordinate is in the block's range on its axis. -/
theorem mem_block (t : Fin cfg0.N) (i : S100000x16.Idx) :
    i ∈ ((cfg0.win 2).blk t).view.set ↔ ∀ a : Fin 2, win0_2.index t a * S2000x16.size a ≤ (i a).val
      ∧ (i a).val < win0_2.index t a * S2000x16.size a + S2000x16.size a := by
  show i ∈ ((View.whole main_v32).slice (win0_2.rect t)).set ↔ _
  rw [View.set_slice_whole, Rect.mem_set_unit]
  exact Iff.rfl

/-- Every entry of the array is written back by some point: row r by point r / 2000. -/
theorem covered (i : S100000x16.Idx) :
    ∃ t : Fin cfg0.N, (cfg0.win 2).flush t = true ∧ i ∈ ((cfg0.win 2).blk t).view.set := by
  have hN : grid0.N = 50 := N_0
  have hi0 : (i 0).val < 100000 := (i 0).isLt
  have hi1 : (i 1).val < 16 := (i 1).isLt
  let t : Fin cfg0.N := ⟨(i 0).val / 2000, by show _ < grid0.N; rw [hN]; omega⟩
  obtain ⟨-, -, -, -, e0, e1⟩ := block_indices t
  have htv : t.val = (i 0).val / 2000 := rfl
  refine ⟨t, flush0_2 t, ?_⟩
  rw [mem_block]
  intro a
  match a with
  | ⟨0, _⟩ =>
    show win0_2.index t (0 : Fin 2) * 2000 ≤ (i 0).val ∧ (i 0).val < win0_2.index t (0 : Fin 2) * 2000 + 2000
    rw [e0, htv]; omega
  | ⟨1, _⟩ =>
    show win0_2.index t (1 : Fin 2) * 16 ≤ (i 1).val ∧ (i 1).val < win0_2.index t (1 : Fin 2) * 16 + 16
    rw [e1]; omega

/-- The output array after the region is the matrix product of the two input arrays as the region finds them. -/
theorem value (c : Dev nD) :
    (dat0 (F := Ideal) V c).arrAt 2 cfg0.N = Cert.Spec.matProd (V c main_arg0) (V c main_arg2) :=
  (dat0 (F := Ideal) V c).arrAt_eq_of_cover 2 (Cert.Spec.matProd (V c main_arg0) (V c main_arg2))
    (fun t _ => written_block V c t) covered

end Cert.KernelIdeal.Region0

end
-- ==== Proof.Region1.lean ====
/-
  The second region: a bias row added to 2000 rows at a time, then the positive part. Its output array ends as that map of its two input arrays.
-/
import proofs.«178386_j15762529976718_1_alg».proof.Proof.Gen.KernelIdeal.Frame
import proofs.«178386_j15762529976718_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The zero offsets of a whole-block access, as the constant function. -/
theorem zero_off : (![0, 0] : Fin 2 → Nat) = fun _ => 0 := funext fun a => by fin_cases a <;> rfl

/-- One entry of the body's result: the block's entry plus the bias row's entry in the same column, or zero if that is negative. -/
theorem pay_apply (x0 : Vec Ideal S2000x16 .f32) (x1 : Vec Ideal S1x16 .f32) (p : Fin 2000) (q : Fin 16) :
    k1_pay1 (F := Ideal) x0 x1 (ix2 p q) = max (x0 (ix2 p q) + x1 (ix2 0 q)) 0 := by
  unfold k1_pay1
  rw [maximumf_apply, addf_apply, broadcast_apply, shapeCast_self, shapeCast_self, Ideal.ofBits_def, Ideal.ofBits_zero_f32]
  congr 2
  refine broadcastTo_apply x1 broadcasts_S1x16_S2000x16 (ix2 p q) (ix2 0 q) (fun a => ?_)
  match a with
  | ⟨0, _⟩ => rfl
  | ⟨1, _⟩ => rfl

/-- Where the blocks sit: at point `t` the input's and the output's block is the `t`-th band of 2000 rows, all 16 columns;
    the bias row's block is the whole one-row array at every point. -/
theorem blk_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- Entry `(p, q)` of the input's block at point `t` is entry `(2000 t + p, q)` of the input array. -/
theorem in_blk_apply (c : Dev nD) (t : Fin cfg1.N) (p : Fin 2000) (q : Fin 16) (k : S100000x16.Idx)
    (hk0 : (k 0).val = t.val * 2000 + p.val) (hk1 : (k 1).val = q.val) :
    (iblk1 V c 0 t : Vec Ideal S2000x16 .f32) (ix2 p q) = (V c main_v45 : S100000x16.Idx → EReal) k := by
  obtain ⟨e0, e1, -⟩ := blk_index t
  unfold iblk1
  rw [View.read_apply]
  show V c main_v45 _ = V c main_v45 _
  congr 1
  funext a
  apply Fin.ext
  match a with
  | ⟨0, _⟩ => show win1_0.index t (0 : Fin 2) * 2000 + 1 * p.val = (k 0).val; omega
  | ⟨1, _⟩ => show win1_0.index t (1 : Fin 2) * 16 + 1 * q.val = (k 1).val; omega

/-- Entry `(0, q)` of the bias row's block at any point is entry `(0, q)` of the one-row array. -/
theorem bias_blk_apply (c : Dev nD) (t : Fin cfg1.N) (q : Fin 16) :
    (iblk1 V c 1 t : Vec Ideal S1x16 .f32) (ix2 0 q) = (V c main_v46 : S1x16.Idx → EReal) (ix2 0 q) := by
  obtain ⟨-, -, e2, e3, -⟩ := blk_index t
  unfold iblk1
  rw [View.read_apply]
  show V c main_v46 _ = V c main_v46 _
  congr 1
  funext a
  apply Fin.ext
  match a with
  | ⟨0, _⟩ => show win1_1.index t (0 : Fin 2) * 1 + 1 * 0 = 0; omega
  | ⟨1, _⟩ => show win1_1.index t (1 : Fin 2) * 16 + 1 * q.val = q.val; omega

/-- What point `t` writes back is the `t`-th band of 2000 rows of the biased positive part of the input array. -/
theorem written_eq (c : Dev nD) (t : Fin cfg1.N) :
    (dat1 (F := Ideal) V c).flushed 2 t
      = ((cfg1.win 2).blk t).view.read (Elt Ideal) (Cert.Spec.biasRelu (V c main_v45) (V c main_v46)) := by
  show (cfg1.win 2).cut (grid1.coords t) ((dat1 V c).after 2 t) = _
  rw [after1_2]
  unfold out1_2
  rw [View.canon_unit_zero zero_off]
  simp only [View.ld_unit_zero (S := S2000x16) zero_off, View.ld_unit_zero (S := S1x16) zero_off]
  obtain ⟨-, -, -, -, e4, e5⟩ := blk_index t
  funext j
  obtain ⟨p, q, rfl⟩ : ∃ (p : Fin 2000) (q : Fin 16), j = ix2 p q := ⟨j 0, j 1, eq_ix2 j⟩
  show k1_pay1 (iblk1 V c 0 t) (iblk1 V c 1 t) (ix2 p q)
    = Cert.Spec.biasRelu (V c main_v45) (V c main_v46) (((cfg1.win 2).blk t).view.emb (ix2 p q))
  refine (pay_apply (iblk1 V c 0 t) (iblk1 V c 1 t) p q).trans ?_
  have r0 : ((((cfg1.win 2).blk t).view.emb (ix2 p q) : S100000x16.Idx) 0).val = t.val * 2000 + p.val := by
    show win1_2.index t (0 : Fin 2) * 2000 + 1 * p.val = _; omega
  have r1 : ((((cfg1.win 2).blk t).view.emb (ix2 p q) : S100000x16.Idx) 1).val = q.val := by
    show win1_2.index t (1 : Fin 2) * 16 + 1 * q.val = _; omega
  have hq : Cert.Spec.colOf (((cfg1.win 2).blk t).view.emb (ix2 p q) : S100000x16.Idx) = q := Fin.ext r1
  unfold Cert.Spec.biasRelu
  rw [hq, in_blk_apply V c t p q (ix2 (Cert.Spec.rowOf (((cfg1.win 2).blk t).view.emb (ix2 p q) : S100000x16.Idx)) q) r0 rfl,
    bias_blk_apply V c t q]

/-- An index of the output array is in point `t`'s block iff each coordinate is in the block's range on its axis. -/
theorem mem_blk (t : Fin cfg1.N) (i : S100000x16.Idx) :
    i ∈ ((cfg1.win 2).blk t).view.set
      ↔ ∀ a : Fin 2, win1_2.index t a * S2000x16.size a ≤ (i a).val ∧ (i a).val < win1_2.index t a * S2000x16.size a + S2000x16.size a := by
  show i ∈ ((View.whole main_v47).slice (win1_2.rect t)).set ↔ _
  rw [View.set_slice_whole, Rect.mem_set_unit]
  exact Iff.rfl

/-- Every entry of the output array is written back by some point: row `r` by point `r / 2000`. -/
theorem covered (i : S100000x16.Idx) :
    ∃ t : Fin cfg1.N, (cfg1.win 2).flush t = true ∧ i ∈ ((cfg1.win 2).blk t).view.set := by
  have hi0 : (i 0).val < 100000 := (i 0).isLt
  have hi1 : (i 1).val < 16 := (i 1).isLt
  have hN : cfg1.N = 50 := N_1
  let t : Fin cfg1.N := ⟨(i 0).val / 2000, by rw [hN]; omega⟩
  obtain ⟨-, -, -, -, e4, e5⟩ := blk_index t
  have ht : t.val = (i 0).val / 2000 := rfl
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 16 ≤ (i 1).val ∧ (i 1).val < win1_2.index t (1 : Fin 2) * 16 + 16; omega

/-- The output array after the region is the biased positive part of the input array, the bias the one-row array. -/
theorem value (c : Dev nD) :
    (dat1 (F := Ideal) V c).arrAt 2 cfg1.N = Cert.Spec.biasRelu (V c main_v45) (V c main_v46) :=
  (dat1 (F := Ideal) V c).arrAt_eq_of_cover 2 (Cert.Spec.biasRelu (V c main_v45) (V c main_v46))
    (fun t _ => written_eq V c t) covered

end Cert.KernelIdeal.Region1

end
-- ==== Proof.Region2.lean ====
/-
  The third region: the rows of the hidden layer, 2000 at a time, times the whole of W2. Its output array ends as the matrix product of its two input arrays.
-/
import proofs.«178386_j15762529976718_1_alg».proof.Proof.Gen.KernelIdeal.Frame
import proofs.«178386_j15762529976718_1_alg».proof.Proof.Spec
import proofs.«178386_j15762529976718_1_alg».proof.Proof.LibRowDims
import Idealize.ShloMosaic.Lib.Pipeline.Value
import Idealize.ShloMosaic.Lib.ValueIdx
import Idealize.ShloMosaic.PureOps.Ideal.Laws

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offsets of a whole-buffer access, however spelt. -/
theorem zero_offsets : (![0, 0] : Fin 2 → Nat) = fun _ => 0 := funext fun a => by fin_cases a <;> rfl

/-- The printed contraction is the plain one: rows of the left operand against columns of the right. -/
theorem dims_plain : dot_S2000x16_S16x40_S2000x40_1_0_0_1_n_n = DotDims.plain 2000 16 40 := rfl

/-- The body's product at an entry (p, q) of the block: the sum over the 16 contracted coordinates of the left block's
    row p against the right block's column q; the recast of the left block to its own shape and the narrowing of the
    operands are the identity on extended reals. -/
theorem product_apply (x0 : Vec Ideal S2000x16 .f32) (x1 : Vec Ideal S16x40 .f32) (p : Fin 2000) (q : Fin 40) :
    k2_pay1 x0 x1 (ix2 p q) = ∑ k : Fin 16, x0 (ix2 p k) * x1 (ix2 k q) := by
  unfold k2_pay1
  rw [dims_plain, shapeCast_self]
  exact RowDims.matmul_plain_zero_apply none _ _ p q

/-- The block indices over the grid: at point t the left operand's and the output's block is the t-th block of rows,
    the right operand's block is the whole array. -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left operand's block at point t is rows 2000 t … 2000 t + 1999 of the hidden layer. -/
theorem left_block_apply (c : Dev nD) (t : Fin cfg2.N) (p : Fin 2000) (k : Fin 16) (r : Fin 100000)
    (hr : r.val = 2000 * t.val + p.val) :
    (iblk2 V c 0 t : Vec Ideal S2000x16 .f32) (ix2 p k) = (V c main_v47 : S100000x16.Idx → EReal) (ix2 r k) := by
  obtain ⟨e0, e1, -⟩ := block_indices t
  unfold iblk2
  rw [View.read_apply]
  show V c main_v47 _ = V c main_v47 _
  congr 1
  funext a
  apply Fin.ext
  match a with
  | ⟨0, _⟩ => show win2_0.index t (0 : Fin 2) * 2000 + 1 * p.val = r.val; rw [e0, hr]; omega
  | ⟨1, _⟩ => show win2_0.index t (1 : Fin 2) * 16 + 1 * k.val = k.val; rw [e1]; omega

/-- The right operand's block at every point is the whole of W2. -/
theorem right_block_apply (c : Dev nD) (t : Fin cfg2.N) (k : Fin 16) (q : Fin 40) :
    (iblk2 V c 1 t : Vec Ideal S16x40 .f32) (ix2 k q) = (V c main_arg4 : S16x40.Idx → EReal) (ix2 k q) := by
  obtain ⟨-, -, e0, e1, -⟩ := block_indices t
  unfold iblk2
  rw [View.read_apply]
  show V c main_arg4 _ = V c main_arg4 _
  congr 1
  funext a
  apply Fin.ext
  match a with
  | ⟨0, _⟩ => show win2_1.index t (0 : Fin 2) * 16 + 1 * k.val = k.val; rw [e0]; omega
  | ⟨1, _⟩ => show win2_1.index t (1 : Fin 2) * 40 + 1 * q.val = q.val; rw [e1]; omega

/-- What point t writes back is block t of the product of the two arrays as the region finds them. -/
theorem written_block (c : Dev nD) (t : Fin cfg2.N) :
    (dat2 (F := Ideal) V c).flushed 2 t
      = ((cfg2.win 2).blk t).view.read (Elt Ideal) (Cert.Spec.matProd (V c main_v47) (V c main_arg4)) := by
  show (cfg2.win 2).cut (grid2.coords t) ((dat2 (F := Ideal) V c).after 2 t) = _
  rw [after2_2]
  unfold out2_2
  rw [View.canon_unit_zero zero_offsets]
  simp only [View.ld_unit_zero (S := S2000x16) zero_offsets, View.ld_unit_zero (S := S16x40) zero_offsets]
  obtain ⟨-, -, -, -, e0, e1⟩ := block_indices t
  have hN : grid2.N = 50 := N_2
  have ht : t.val < 50 := hN ▸ t.isLt
  funext j
  obtain ⟨p, q, rfl⟩ : ∃ (p : Fin 2000) (q : Fin 40), j = ix2 p q := ⟨j 0, j 1, eq_ix2 j⟩
  -- the entry (p, q) of the block sits at row 2000 t + p, column q of the array
  have hemb : ((cfg2.win 2).blk t).view.emb (ix2 p q)
      = (ix2 (⟨2000 * t.val + p.val, by have := p.isLt; omega⟩ : Fin 100000) q : S100000x40.Idx) := by
    funext a
    apply Fin.ext
    match a with
    | ⟨0, _⟩ => show win2_2.index t (0 : Fin 2) * 2000 + 1 * p.val = 2000 * t.val + p.val; rw [e0]; omega
    | ⟨1, _⟩ => show win2_2.index t (1 : Fin 2) * 40 + 1 * q.val = q.val; rw [e1]; omega
  show k2_pay1 (iblk2 V c 0 t) (iblk2 V c 1 t) (ix2 p q)
    = Cert.Spec.matProd (V c main_v47) (V c main_arg4) (((cfg2.win 2).blk t).view.emb (ix2 p q))
  rw [hemb, Cert.Spec.matProd_apply]
  refine (product_apply _ _ p q).trans (Finset.sum_congr rfl fun k _ => ?_)
  rw [left_block_apply V c t p k ⟨2000 * t.val + p.val, by have := p.isLt; omega⟩ rfl, right_block_apply V c t k q]

/-- An entry of the array is in point t's block iff each coordinate is in the block's range on its axis. -/
theorem mem_block (t : Fin cfg2.N) (i : S100000x40.Idx) :
    i ∈ ((cfg2.win 2).blk t).view.set ↔ ∀ a : Fin 2, win2_2.index t a * S2000x40.size a ≤ (i a).val
      ∧ (i a).val < win2_2.index t a * S2000x40.size a + S2000x40.size a := by
  show i ∈ ((View.whole main_v48).slice (win2_2.rect t)).set ↔ _
  rw [View.set_slice_whole, Rect.mem_set_unit]
  exact Iff.rfl

/-- Every entry of the array is written back by some point: row r by point r / 2000. -/
theorem covered (i : S100000x40.Idx) :
    ∃ t : Fin cfg2.N, (cfg2.win 2).flush t = true ∧ i ∈ ((cfg2.win 2).blk t).view.set := by
  have hN : grid2.N = 50 := N_2
  have hi0 : (i 0).val < 100000 := (i 0).isLt
  have hi1 : (i 1).val < 40 := (i 1).isLt
  let t : Fin cfg2.N := ⟨(i 0).val / 2000, by show _ < grid2.N; rw [hN]; omega⟩
  obtain ⟨-, -, -, -, e0, e1⟩ := block_indices t
  have htv : t.val = (i 0).val / 2000 := rfl
  refine ⟨t, flush2_2 t, ?_⟩
  rw [mem_block]
  intro a
  match a with
  | ⟨0, _⟩ =>
    show win2_2.index t (0 : Fin 2) * 2000 ≤ (i 0).val ∧ (i 0).val < win2_2.index t (0 : Fin 2) * 2000 + 2000
    rw [e0, htv]; omega
  | ⟨1, _⟩ =>
    show win2_2.index t (1 : Fin 2) * 40 ≤ (i 1).val ∧ (i 1).val < win2_2.index t (1 : Fin 2) * 40 + 40
    rw [e1]; omega

/-- The output array after the region is the matrix product of the two input arrays as the region finds them. -/
theorem value (c : Dev nD) :
    (dat2 (F := Ideal) V c).arrAt 2 cfg2.N = Cert.Spec.matProd (V c main_v47) (V c main_arg4) :=
  (dat2 (F := Ideal) V c).arrAt_eq_of_cover 2 (Cert.Spec.matProd (V c main_v47) (V c main_arg4))
    (fun t _ => written_block V c t) covered

end Cert.KernelIdeal.Region2

end
-- ==== Proof.Region3.lean ====
/-
  The fourth region: a bias row added to 2000 rows at a time, then each row's log-softmax. Its output array ends as that map of its two input arrays.

  The body works on a block of 2000 rows and 40 columns and on the one bias row. With z the block's row p plus the bias
  row, μ the largest entry of z (the maximum taken from minus infinity, the bottom of the extended reals) the body leaves
  at (p, q) the value z q - μ - log (∑ j, exp (z j - μ)): the maximum and the sum are reductions along the 40 columns, each
  turned into a column of 2000 entries and spread back along the rows. Row p of the result depends on row p of the block
  and on the bias row only, so the block computed at grid point t, whose rows are rows 2000 t … 2000 t + 1999 of the
  array, is block t of the array-level map; the 50 blocks tile the 100000 rows, row r lying in block r / 2000.
-/
import proofs.«178386_j15762529976718_1_alg».proof.Proof.Gen.KernelIdeal.Frame
import proofs.«178386_j15762529976718_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The body's arithmetic at an entry of a block -/

/-- The word of minus infinity is the bottom of the extended reals. -/
theorem negInf_word : Ideal.ofBits .f32 0xFF800000#32 = ⊥ := by simp [Ideal.ofBits, Ideal.ieee]

/-- A length-2000 vector viewed as a column and spread over 40 columns reads, at (p, q), its entry p. -/
theorem column_spread_apply {α : Type} (v : S2000.Idx → α) (hc : S2000.ShapeCasts S2000x1) (hb : S2000x1.Broadcasts S2000x40)
    (p : Fin 2000) (q : Fin 40) :
    broadcastTo S2000x40 (shapeCast S2000x1 v hc) hb (ix2 p q) = v (ix1 p) := by
  refine (broadcastTo_apply (shapeCast S2000x1 v hc) hb (ix2 p q) (ix2 p (0 : Fin 1)) fun a => ?_).trans ?_
  · match a with
    | ⟨0, _⟩ => rfl
    | ⟨1, _⟩ => rfl
  · refine shapeCast_apply v hc (ix2 p (0 : Fin 1)) (ix1 p) ?_
    rw [Shape.rowMajor_val_two, Shape.rowMajor_val_one]
    show p.val = p.val * 1 + 0
    omega

set_option maxHeartbeats 50000 in
/-- The row maximum from minus infinity, read at row p. -/
theorem rowMax_read (v : FVec Ideal S2000x40 .f32) (h : S2000x40.Reduces [1] S2000) (hφ : FKind.Formats .f32)
    (hacc : (0xFF800000#32 : BitVec 32) = FKind.maximumf.neutral .f32 hφ) (p : Fin 2000) :
    multiReduction (F := Ideal) .maximumf [1] S2000 v 0xFF800000#32 h hφ hacc (ix1 p)
      = Cert.Spec.rowMax (fun j : Fin 40 => v (ix2 p j)) := by
  refine (Ideal.multiReduction_maximumf_single v 0xFF800000#32 h hφ hacc (ix1 p)).trans ?_
  show (Finset.univ : Finset (Fin 40)).fold max (Ideal.ofBits .f32 0xFF800000#32) (fun k => v (h.lift (ix1 p) k)) = _
  rw [negInf_word]
  unfold Cert.Spec.rowMax
  congr 1
  funext k
  congr 1
  funext a
  refine Fin.ext ?_
  match a with
  | ⟨0, _⟩ => rfl
  | ⟨1, _⟩ => rfl

set_option maxHeartbeats 50000 in
/-- The row sum from zero, read at row p. -/
theorem rowSum_read (v : FVec Ideal S2000x40 .f32) (h : S2000x40.Reduces [1] S2000) (hφ : FKind.Formats .f32)
    (hacc : (0x00000000#32 : BitVec 32) = FKind.add.neutral .f32 hφ) (p : Fin 2000) :
    multiReduction (F := Ideal) .add [1] S2000 v 0x00000000#32 h hφ hacc (ix1 p)
      = ∑ j : Fin 40, v (ix2 p j) := by
  refine (Ideal.multiReduction_add_single v 0x00000000#32 h hφ hacc (ix1 p)).trans ?_
  show ∑ k : Fin 40, v (h.lift (ix1 p) k) = _
  refine Finset.sum_congr rfl fun k _ => ?_
  congr 1
  funext a
  refine Fin.ext ?_
  match a with
  | ⟨0, _⟩ => rfl
  | ⟨1, _⟩ => rfl

/-- A block with the one bias row added to every row reads, at (p, j), the biased row p at j. -/
theorem biased_read (x0 : FVec Ideal S2000x40 .f32) (x1 : FVec Ideal S1x40 .f32) (h0 : S2000x40.ShapeCasts S2000x40)
    (h1 : S1x40.ShapeCasts S1x40) (hb : S1x40.Broadcasts S2000x40) (p : Fin 2000) (j : Fin 40) :
    addf (F := Ideal) (φ := .f32) (shapeCast S2000x40 x0 h0) (broadcastTo S2000x40 (shapeCast S1x40 x1 h1) hb) (ix2 p j)
      = Cert.Spec.biased (M := 2000) (N := 40) x0 x1 p j := by
  rw [addf_apply, shapeCast_self, shapeCast_self]
  show x0 (ix2 p j) + broadcastTo S2000x40 x1 hb (ix2 p j) = x0 (ix2 p j) + x1 (ix2 0 j)
  congr 1
  refine broadcastTo_apply x1 hb (ix2 p j) (ix2 (0 : Fin 1) j) fun a => ?_
  match a with
  | ⟨0, _⟩ => rfl
  | ⟨1, _⟩ => rfl

/-- A block less its rows' maxima, each spread along its row, reads at (p, j) the entry less row p's maximum. -/
theorem centred_read (z : FVec Ideal S2000x40 .f32) (h : S2000x40.Reduces [1] S2000) (hφ : FKind.Formats .f32)
    (hacc : (0xFF800000#32 : BitVec 32) = FKind.maximumf.neutral .f32 hφ) (hc : S2000.ShapeCasts S2000x1)
    (hb : S2000x1.Broadcasts S2000x40) (p : Fin 2000) (j : Fin 40) :
    subf z (broadcastTo S2000x40 (shapeCast S2000x1 (multiReduction (F := Ideal) .maximumf [1] S2000 z 0xFF800000#32 h hφ hacc) hc) hb) (ix2 p j)
      = z (ix2 p j) - Cert.Spec.rowMax (fun j' : Fin 40 => z (ix2 p j')) := by
  rw [subf_apply, column_spread_apply, rowMax_read]

/-- The logarithm of the rows' sums of exponentials, spread along the rows, reads at (p, q) row p's. -/
theorem logSumExp_read (u : FVec Ideal S2000x40 .f32) (h : S2000x40.Reduces [1] S2000) (hφ : FKind.Formats .f32)
    (hacc : (0x00000000#32 : BitVec 32) = FKind.add.neutral .f32 hφ) (hc : S2000.ShapeCasts S2000x1)
    (hb : S2000x1.Broadcasts S2000x40) (p : Fin 2000) (q : Fin 40) :
    broadcastTo S2000x40 (log (F := Ideal) (shapeCast S2000x1 (multiReduction (F := Ideal) .add [1] S2000 (exp u) 0x00000000#32 h hφ hacc) hc)) hb (ix2 p q)
      = Ideal.log (∑ j : Fin 40, Ideal.exp (u (ix2 p j))) := by
  refine (broadcastTo_apply _ hb (ix2 p q) (ix2 p (0 : Fin 1)) fun a => ?_).trans ?_
  · match a with
    | ⟨0, _⟩ => rfl
    | ⟨1, _⟩ => rfl
  · show Ideal.log (shapeCast S2000x1 (multiReduction (F := Ideal) .add [1] S2000 (exp u) 0x00000000#32 h hφ hacc) hc (ix2 p (0 : Fin 1))) = _
    congr 1
    refine (shapeCast_apply _ hc (ix2 p (0 : Fin 1)) (ix1 p) ?_).trans ?_
    · rw [Shape.rowMajor_val_two, Shape.rowMajor_val_one]
      show p.val = p.val * 1 + 0
      omega
    · rw [rowSum_read]
      rfl

set_option maxHeartbeats 200000 in
/-- The body's result at (p, q) of a block: the biased row p's log-softmax at q. -/
theorem body_apply (x0 : Vec Ideal S2000x40 .f32) (x1 : Vec Ideal S1x40 .f32) (p : Fin 2000) (q : Fin 40) :
    k3_pay1 (F := Ideal) x0 x1 (ix2 p q) = Cert.Spec.biasLogSoftmax (M := 2000) (N := 40) x0 x1 (ix2 p q) := by
  rw [Cert.Spec.biasLogSoftmax_apply]
  unfold k3_pay1
  dsimp only
  -- the biased block
  have hZ : ∀ j : Fin 40, addf (F := Ideal) (φ := .f32) (shapeCast S2000x40 x0 shapeCasts_S2000x40_S2000x40)
      (broadcastTo S2000x40 (shapeCast S1x40 x1 shapeCasts_S1x40_S1x40) broadcasts_S1x40_S2000x40) (ix2 p j)
        = Cert.Spec.biased (M := 2000) (N := 40) x0 x1 p j := fun j => biased_read x0 x1 _ _ _ p j
  generalize addf (F := Ideal) (φ := .f32) (shapeCast S2000x40 x0 shapeCasts_S2000x40_S2000x40)
      (broadcastTo S2000x40 (shapeCast S1x40 x1 shapeCasts_S1x40_S1x40) broadcasts_S1x40_S2000x40) = Z at hZ ⊢
  have hrow : (fun j' : Fin 40 => Z (ix2 p j')) = Cert.Spec.biased (M := 2000) (N := 40) x0 x1 p := funext hZ
  -- the block less its rows' maxima
  have hU : ∀ j : Fin 40, subf Z (broadcastTo S2000x40 (shapeCast S2000x1
      (multiReduction (F := Ideal) .maximumf [1] S2000 Z 0xFF800000#32 reduces_S2000x40_S2000 (.inl rfl) rfl) shapeCasts_S2000_S2000x1)
        broadcasts_S2000x1_S2000x40) (ix2 p j)
      = Cert.Spec.biased (M := 2000) (N := 40) x0 x1 p j - Cert.Spec.rowMax (Cert.Spec.biased (M := 2000) (N := 40) x0 x1 p) :=
    fun j => (centred_read Z _ _ _ _ _ p j).trans (by rw [hrow, hZ j])
  generalize subf Z (broadcastTo S2000x40 (shapeCast S2000x1
      (multiReduction (F := Ideal) .maximumf [1] S2000 Z 0xFF800000#32 reduces_S2000x40_S2000 (.inl rfl) rfl) shapeCasts_S2000_S2000x1)
        broadcasts_S2000x1_S2000x40) = U at hU ⊢
  rw [subf_apply, hU q]
  refine congrArg (fun w : EReal => Cert.Spec.biased (M := 2000) (N := 40) x0 x1 p q
    - Cert.Spec.rowMax (Cert.Spec.biased (M := 2000) (N := 40) x0 x1 p) - w) ?_
  refine (logSumExp_read U _ _ _ _ _ p q).trans ?_
  simp only [hU]

/-! ## From the blocks to the array -/

/-- Row p of the result depends on row p of the first operand and on the bias row only: two pairs of arrays that
    agree there have the same entry. -/
theorem biasLogSoftmax_row_congr {M M' N : Nat} (a : Cert.Spec.Mat M N) (a' : Cert.Spec.Mat M' N) (b b' : Cert.Spec.Mat 1 N)
    (p : Fin M) (p' : Fin M') (q : Fin N) (ha : ∀ j : Fin N, a (ix2 p j) = a' (ix2 p' j))
    (hb : ∀ j : Fin N, b (ix2 0 j) = b' (ix2 0 j)) :
    Cert.Spec.biasLogSoftmax a b (ix2 p q) = Cert.Spec.biasLogSoftmax a' b' (ix2 p' q) := by
  have hz : Cert.Spec.biased a b p = Cert.Spec.biased a' b' p' := funext fun j => by
    show a (ix2 p j) + b (ix2 0 j) = a' (ix2 p' j) + b' (ix2 0 j)
    rw [ha j, hb j]
  rw [Cert.Spec.biasLogSoftmax_apply, Cert.Spec.biasLogSoftmax_apply, hz]

/-- The body's result at (p, q) of a block whose row p is row r of the array and whose bias row is the array's:
    the array-level map at (r, q). -/
theorem block_entry (a : Cert.Spec.Mat 100000 40) (b : Cert.Spec.Mat 1 40) (x0 : Vec Ideal S2000x40 .f32)
    (x1 : Vec Ideal S1x40 .f32) (r : Fin 100000) (p : Fin 2000) (q : Fin 40) (i : S100000x40.Idx) (hi : i = ix2 r q)
    (h0 : ∀ j : Fin 40, x0 (ix2 p j) = a (ix2 r j)) (h1 : ∀ j : Fin 40, x1 (ix2 0 j) = b (ix2 0 j)) :
    k3_pay1 (F := Ideal) x0 x1 (ix2 p q) = Cert.Spec.biasLogSoftmax a b i := by
  subst hi
  exact (body_apply x0 x1 p q).trans (biasLogSoftmax_row_congr (M := 2000) (M' := 100000) x0 a x1 b p r q h0 h1)

/-- The zero offsets of a whole-block access, as the constant function. -/
theorem zero_offsets : (![0, 0] : Fin 2 → Nat) = fun _ => 0 := funext fun a => by fin_cases a <;> rfl

/-- The printed index maps over the grid: at point t the first operand's and the result's block is (t, 0), the bias
    row's block is (0, 0). -/
theorem block_indices : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

set_option maxHeartbeats 400000 in
/-- What point t writes back is block t of the array-level map of the arrays the region finds. -/
theorem flushed_block (c : Dev nD) (t : Fin cfg3.N) :
    (dat3 (F := Ideal) V c).flushed 2 t
      = ((cfg3.win 2).blk t).view.read (Elt Ideal) (Cert.Spec.biasLogSoftmax (M := 100000) (N := 40) (V c main_v61) (V c main_v62)) := by
  show (cfg3.win 2).cut (grid3.coords t) ((dat3 (F := Ideal) V c).after 2 t) = _
  rw [after3_2]
  unfold out3_2
  rw [View.canon_unit_zero zero_offsets]
  simp only [View.ld_unit_zero (S := S2000x40) zero_offsets, View.ld_unit_zero (S := S1x40) zero_offsets]
  obtain ⟨e0, e1, e2, e3, e4, e5⟩ := block_indices t
  have ht : t.val < 50 := lt_of_lt_of_eq t.isLt N_3
  funext j
  obtain ⟨p, q, rfl⟩ : ∃ (p : Fin 2000) (q : Fin 40), j = ix2 p q := ⟨j 0, j 1, eq_ix2 j⟩
  show k3_pay1 (F := Ideal) (iblk3 V c 0 t) (iblk3 V c 1 t) (ix2 p q)
    = Cert.Spec.biasLogSoftmax (M := 100000) (N := 40) (V c main_v61) (V c main_v62) (((cfg3.win 2).blk t).view.emb (ix2 p q))
  refine block_entry (V c main_v61) (V c main_v62) (iblk3 V c 0 t) (iblk3 V c 1 t)
    ⟨t.val * 2000 + p.val, by have := p.isLt; omega⟩ p q (((cfg3.win 2).blk t).view.emb (ix2 p q)) ?_ ?_ ?_
  · -- the result block's entry (p, q) sits at row 2000 t + p, column q
    funext a; apply Fin.ext
    match a with
    | ⟨0, _⟩ => show win3_2.index t (0 : Fin 2) * 2000 + 1 * p.val = t.val * 2000 + p.val; rw [e4]; omega
    | ⟨1, _⟩ => show win3_2.index t (1 : Fin 2) * 40 + 1 * q.val = q.val; rw [e5]; omega
  · -- the first operand's block row p is the array's row 2000 t + p
    intro j
    unfold iblk3
    rw [View.read_apply]
    show V c main_v61 (((cfg3.win 0).blk t).view.emb (ix2 p j)) = V c main_v61 _
    congr 1
    funext a; apply Fin.ext
    match a with
    | ⟨0, _⟩ => show win3_0.index t (0 : Fin 2) * 2000 + 1 * p.val = t.val * 2000 + p.val; rw [e0]; omega
    | ⟨1, _⟩ => show win3_0.index t (1 : Fin 2) * 40 + 1 * j.val = j.val; rw [e1]; omega
  · -- the bias row's block is the whole one-row array
    intro j
    unfold iblk3
    rw [View.read_apply]
    show V c main_v62 (((cfg3.win 1).blk t).view.emb (ix2 0 j)) = V c main_v62 _
    congr 1
    funext a; apply Fin.ext
    match a with
    | ⟨0, _⟩ => show win3_1.index t (0 : Fin 2) * 1 + 1 * 0 = 0; rw [e2]
    | ⟨1, _⟩ => show win3_1.index t (1 : Fin 2) * 40 + 1 * j.val = j.val; rw [e3]; omega

/-- An index of the result array is in point t's block iff each coordinate is in the block's range on its axis. -/
theorem mem_block (t : Fin cfg3.N) (i : S100000x40.Idx) :
    i ∈ ((cfg3.win 2).blk t).view.set ↔ ∀ a : Fin 2, win3_2.index t a * S2000x40.size a ≤ (i a).val
      ∧ (i a).val < win3_2.index t a * S2000x40.size a + S2000x40.size a := by
  show i ∈ ((View.whole main_v63).slice (win3_2.rect t)).set ↔ _
  rw [View.set_slice_whole, Rect.mem_set_unit]
  exact Iff.rfl

/-- Row r of the result array is written back by point r / 2000. -/
theorem covered (i : S100000x40.Idx) :
    ∃ t : Fin cfg3.N, (cfg3.win 2).flush t = true ∧ i ∈ ((cfg3.win 2).blk t).view.set := by
  have hi0 : (i 0).val < 100000 := (i 0).isLt
  have hi1 : (i 1).val < 40 := (i 1).isLt
  obtain ⟨t, ht⟩ : ∃ t : Fin cfg3.N, t.val = (i 0).val / 2000 :=
    ⟨⟨(i 0).val / 2000, lt_of_lt_of_eq (show (i 0).val / 2000 < 50 by omega) N_3.symm⟩, rfl⟩
  obtain ⟨-, -, -, -, e4, e5⟩ := block_indices t
  refine ⟨t, flush3_2 t, ?_⟩
  rw [mem_block]
  intro a
  match a with
  | ⟨0, _⟩ =>
    show win3_2.index t (0 : Fin 2) * 2000 ≤ (i 0).val ∧ (i 0).val < win3_2.index t (0 : Fin 2) * 2000 + 2000
    rw [e4, ht]; omega
  | ⟨1, _⟩ =>
    show win3_2.index t (1 : Fin 2) * 40 ≤ (i 1).val ∧ (i 1).val < win3_2.index t (1 : Fin 2) * 40 + 40
    rw [e5]; omega

/-- The output array after the region is the biased row-wise log-softmax of the input array, the bias the one-row array. -/
theorem value (c : Dev nD) :
    (dat3 (F := Ideal) V c).arrAt 2 cfg3.N = Cert.Spec.biasLogSoftmax (V c main_v61) (V c main_v62) := by
  -- every point writes back its block of the one array-level map, and the blocks cover the array
  exact (dat3 (F := Ideal) V c).arrAt_eq_of_cover 2
    (Cert.Spec.biasLogSoftmax (M := 100000) (N := 40) (V c main_v61) (V c main_v62))
    (fun t _ => flushed_block V c t) covered

end Cert.KernelIdeal.Region3

end
-- ==== Proof.RefWalk.lean ====
/-
  The reference program's run with its result named: the host operations of @main read back in stretches. The first
  stretch computes the node lists and the edge weights from the edge list; then each layer is a host product, the
  gather-scale-scatter aggregation, and its bias with the positive part (first layer) or the row-wise log-softmax
  (second layer). Every stretch is read at the buffers the next one needs, over the contents the stretch before left,
  so no term is spelt twice; the result is the network of `Cert.Glue` with the layers as the host computes them.
-/
import proofs.«178386_j15762529976718_1_alg».proof.Proof.RefRun
import proofs.«178386_j15762529976718_1_alg».proof.Proof.Glue
import Idealize.ShloMosaic.Lib.StableHlo.Run
import Idealize.ShloMosaic.Lib.Pipeline.Frame

set_option maxRecDepth 16384

noncomputable section

namespace Cert.RefWalk

open Cert.ReferenceIdeal Cert.ReferenceIdeal.Facts₀ Cert.ReferenceIdeal.Facts Cert.ReferenceIdeal.RunP
open Idealize.ShloMosaic Idealize.ShloMosaic.TcCoe Idealize.ShloMosaic.StableHlo Idealize.SL.Sem

variable {F : FTy → Type} [FloatOps F]

/-- Contents carried to a typed reference's buffer and back are themselves. -/
theorem ofBuf_toBuf {T : BufTy} (x : TRef sig T) (v : T.Contents (Elt F)) : x.ofBuf (x.toBuf v) = v := by
  obtain ⟨r, h, h1, h2⟩ := x
  subst h
  rfl

/-- A list of operations read in two stretches: the contents after the whole are those after the rest, from the
    contents after the first `k`. -/
theorem after_cut (k : Nat) (L : List (HloOp τ sig (Elt F))) (W : Valuation τ sig (Elt F)) :
    StableHlo.after L W = StableHlo.after (L.drop k) (StableHlo.after (L.take k) W) := by
  rw [← StableHlo.after_append, List.take_append_drop]

/-! ## The six arguments are never written -/

/-- A stretch of operations that leaves the six arguments as it finds them. -/
def KeepsArgs (L : List (HloOp τ sig (Elt F))) : Prop := ∀ W : Valuation τ sig (Elt F),
  StableHlo.after L W (Proc.devRef .tc main_arg0) = W (Proc.devRef .tc main_arg0)
  ∧ StableHlo.after L W (Proc.devRef .tc main_arg1) = W (Proc.devRef .tc main_arg1)
  ∧ StableHlo.after L W (Proc.devRef .tc main_arg2) = W (Proc.devRef .tc main_arg2)
  ∧ StableHlo.after L W (Proc.devRef .tc main_arg3) = W (Proc.devRef .tc main_arg3)
  ∧ StableHlo.after L W (Proc.devRef .tc main_arg4) = W (Proc.devRef .tc main_arg4)
  ∧ StableHlo.after L W (Proc.devRef .tc main_arg5) = W (Proc.devRef .tc main_arg5)

/-- Two stretches that each keep the arguments keep them one after the other. -/
theorem KeepsArgs.cut (k : Nat) (L : List (HloOp τ sig (Elt F))) (h1 : KeepsArgs (L.take k)) (h2 : KeepsArgs (L.drop k)) :
    KeepsArgs L := fun W => by
  rw [after_cut k L W]
  obtain ⟨a0, a1, a2, a3, a4, a5⟩ := h2 (StableHlo.after (L.take k) W)
  obtain ⟨b0, b1, b2, b3, b4, b5⟩ := h1 W
  exact ⟨a0.trans b0, a1.trans b1, a2.trans b2, a3.trans b3, a4.trans b4, a5.trans b5⟩

theorem keeps_nodes : KeepsArgs ((ops (F := F)).take 7) := fun W => by
  simp only [ops, List.drop_succ_cons, List.drop_zero, List.take_succ_cons, List.take_zero]
  refine ⟨?_, ?_, ?_, ?_, ?_, ?_⟩ <;> (after_results_simp <;> rfl)

theorem keeps_weights : KeepsArgs (((ops (F := F)).drop 7).take 36) := fun W => by
  simp only [ops, List.drop_succ_cons, List.drop_zero, List.take_succ_cons, List.take_zero]
  refine ⟨?_, ?_, ?_, ?_, ?_, ?_⟩ <;> (after_results_simp <;> rfl)

theorem keeps_first : KeepsArgs ((((ops (F := F)).drop 7).drop 36).take 17) := fun W => by
  simp only [ops, List.drop_succ_cons, List.drop_zero, List.take_succ_cons, List.take_zero]
  refine ⟨?_, ?_, ?_, ?_, ?_, ?_⟩ <;> (after_results_simp <;> rfl)

theorem keeps_hidden : KeepsArgs (((((ops (F := F)).drop 7).drop 36).drop 17).take 7) := fun W => by
  simp only [ops, List.drop_succ_cons, List.drop_zero, List.take_succ_cons, List.take_zero]
  refine ⟨?_, ?_, ?_, ?_, ?_, ?_⟩ <;> (after_results_simp <;> rfl)

theorem keeps_second : KeepsArgs ((((((ops (F := F)).drop 7).drop 36).drop 17).drop 7).take 16) := fun W => by
  simp only [ops, List.drop_succ_cons, List.drop_zero, List.take_succ_cons, List.take_zero]
  refine ⟨?_, ?_, ?_, ?_, ?_, ?_⟩ <;> (after_results_simp <;> rfl)

theorem keeps_last : KeepsArgs ((((((ops (F := F)).drop 7).drop 36).drop 17).drop 7).drop 16) := fun W => by
  simp only [ops, List.drop_succ_cons, List.drop_zero, List.take_succ_cons, List.take_zero]
  refine ⟨?_, ?_, ?_, ?_, ?_, ?_⟩ <;> (after_results_simp <;> rfl)

/-- No operation of the whole list writes an argument. -/
theorem keeps_ops : KeepsArgs (ops (F := F)) :=
  KeepsArgs.cut 7 _ keeps_nodes (KeepsArgs.cut 36 _ keeps_weights (KeepsArgs.cut 17 _ keeps_first
    (KeepsArgs.cut 7 _ keeps_hidden (KeepsArgs.cut 16 _ keeps_second keeps_last))))

/-! ## The stretches, each over any contents it may find -/

/-- The first seven operations build the two node lists from the edge list. -/
theorem node_lists (W : Valuation τ sig (Elt F)) :
    StableHlo.after ((ops (F := F)).take 7) W (Proc.devRef .tc main_v3) = Cert.Glue.srcIdx (W (Proc.devRef .tc main_arg1))
    ∧ StableHlo.after ((ops (F := F)).take 7) W (Proc.devRef .tc main_v6) = Cert.Glue.dstIdx (W (Proc.devRef .tc main_arg1)) := by
  simp only [ops, List.drop_succ_cons, List.drop_zero, List.take_succ_cons, List.take_zero]
  refine ⟨?_, ?_⟩ <;> (after_results; rfl)

/-- The next thirty-six operations compute the edge weights from the two node lists, which they keep. -/
theorem edge_weights (W : Valuation τ sig (Elt F)) :
    StableHlo.after (((ops (F := F)).drop 7).take 36) W (Proc.devRef .tc main_v31)
        = Cert.Glue.norm (W (Proc.devRef .tc main_v3)) (W (Proc.devRef .tc main_v6))
    ∧ StableHlo.after (((ops (F := F)).drop 7).take 36) W (Proc.devRef .tc main_v3) = W (Proc.devRef .tc main_v3)
    ∧ StableHlo.after (((ops (F := F)).drop 7).take 36) W (Proc.devRef .tc main_v6) = W (Proc.devRef .tc main_v6) := by
  simp only [ops, List.drop_succ_cons, List.drop_zero, List.take_succ_cons, List.take_zero]
  refine ⟨?_, ?_, ?_⟩
  · after_results_simp
    rfl
  all_goals (after_results_simp <;> rfl)

/-- The next seventeen operations are the first layer's product and its aggregation over the edges; the node lists and
    the weights are kept. -/
theorem first_aggregate (W : Valuation τ sig (Elt F)) :
    StableHlo.after ((((ops (F := F)).drop 7).drop 36).take 17) W (Proc.devRef .tc main_v45)
        = Cert.Glue.agg16 (W (Proc.devRef .tc main_v3)) (W (Proc.devRef .tc main_v6)) (W (Proc.devRef .tc main_v31))
            (Cert.Glue.refLinear1 (W (Proc.devRef .tc main_arg0)) (W (Proc.devRef .tc main_arg2)))
    ∧ StableHlo.after ((((ops (F := F)).drop 7).drop 36).take 17) W (Proc.devRef .tc main_v3) = W (Proc.devRef .tc main_v3)
    ∧ StableHlo.after ((((ops (F := F)).drop 7).drop 36).take 17) W (Proc.devRef .tc main_v6) = W (Proc.devRef .tc main_v6)
    ∧ StableHlo.after ((((ops (F := F)).drop 7).drop 36).take 17) W (Proc.devRef .tc main_v31) = W (Proc.devRef .tc main_v31) := by
  simp only [ops, List.drop_succ_cons, List.drop_zero, List.take_succ_cons, List.take_zero]
  refine ⟨?_, ?_, ?_, ?_⟩
  · after_results_simp
    rfl
  all_goals (after_results_simp <;> rfl)

/-- The next seven operations add the first bias along the rows, take the positive part, and form the second layer's
    product; the node lists and the weights are kept. -/
theorem hidden_product (W : Valuation τ sig (Elt F)) :
    StableHlo.after (((((ops (F := F)).drop 7).drop 36).drop 17).take 7) W (Proc.devRef .tc main_v50)
        = Cert.Glue.refLinear2 (Cert.Glue.refBiasRelu (W (Proc.devRef .tc main_v45)) (W (Proc.devRef .tc main_arg3)))
            (W (Proc.devRef .tc main_arg4))
    ∧ StableHlo.after (((((ops (F := F)).drop 7).drop 36).drop 17).take 7) W (Proc.devRef .tc main_v3) = W (Proc.devRef .tc main_v3)
    ∧ StableHlo.after (((((ops (F := F)).drop 7).drop 36).drop 17).take 7) W (Proc.devRef .tc main_v6) = W (Proc.devRef .tc main_v6)
    ∧ StableHlo.after (((((ops (F := F)).drop 7).drop 36).drop 17).take 7) W (Proc.devRef .tc main_v31) = W (Proc.devRef .tc main_v31) := by
  simp only [ops, List.drop_succ_cons, List.drop_zero, List.take_succ_cons, List.take_zero]
  refine ⟨?_, ?_, ?_, ?_⟩
  · after_results_simp
    simp only [ofBuf_toBuf]
    rfl
  all_goals (after_results_simp <;> rfl)

/-- The next sixteen operations aggregate the second layer's product over the edges. -/
theorem second_aggregate (W : Valuation τ sig (Elt F)) :
    StableHlo.after ((((((ops (F := F)).drop 7).drop 36).drop 17).drop 7).take 16) W (Proc.devRef .tc main_v63)
        = Cert.Glue.agg40 (W (Proc.devRef .tc main_v3)) (W (Proc.devRef .tc main_v6)) (W (Proc.devRef .tc main_v31))
            (W (Proc.devRef .tc main_v50)) := by
  simp only [ops, List.drop_succ_cons, List.drop_zero, List.take_succ_cons, List.take_zero]
  after_results_simp
  rfl

/-- The last eighteen operations add the second bias along the rows and take each row's log-softmax. -/
theorem last_layer (W : Valuation τ sig (Elt F)) :
    StableHlo.after ((((((ops (F := F)).drop 7).drop 36).drop 17).drop 7).drop 16) W (Proc.devRef .tc main_v67)
        = Cert.Glue.refLogSoftmax (Cert.Glue.refBias40 (W (Proc.devRef .tc main_v63)) (W (Proc.devRef .tc main_arg5))) := by
  simp only [ops, List.drop_succ_cons, List.drop_zero, List.take_succ_cons, List.take_zero]
  after_results_simp
  simp only [ofBuf_toBuf]
  rfl

/-! ## The whole list -/

/-- The result buffer after the whole operation list is the network with the layers as the host computes them. -/
theorem after_ops_result (m : (ℓ : Loc nD τ sig) → Buf (Elt F) ℓ) (c : Dev nD) :
    StableHlo.after (ops (F := F)) (launchContents m c) (Proc.devRef .tc main_v67)
      = Cert.Glue.refValue (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  rw [after_cut 7 (ops (F := F)), after_cut 36 ((ops (F := F)).drop 7), after_cut 17 (((ops (F := F)).drop 7).drop 36),
    after_cut 7 ((((ops (F := F)).drop 7).drop 36).drop 17), after_cut 16 (((((ops (F := F)).drop 7).drop 36).drop 17).drop 7)]
  -- each stretch read at what the next one needs, last first
  rw [last_layer, second_aggregate, (keeps_second _).2.2.2.2.2]
  rw [(hidden_product _).1, (hidden_product _).2.1, (hidden_product _).2.2.1, (hidden_product _).2.2.2,
    (keeps_hidden _).2.2.2.2.2]
  rw [(first_aggregate _).1, (first_aggregate _).2.1, (first_aggregate _).2.2.1, (first_aggregate _).2.2.2,
    (keeps_first _).2.2.2.1, (keeps_first _).2.2.2.2.1, (keeps_first _).2.2.2.2.2]
  rw [(edge_weights _).1, (edge_weights _).2.1, (edge_weights _).2.2, (keeps_weights _).1, (keeps_weights _).2.2.1,
    (keeps_weights _).2.2.2.1, (keeps_weights _).2.2.2.2.1, (keeps_weights _).2.2.2.2.2]
  rw [(node_lists _).1, (node_lists _).2, (keeps_nodes _).1, (keeps_nodes _).2.2.1, (keeps_nodes _).2.2.2.1,
    (keeps_nodes _).2.2.2.2.1, (keeps_nodes _).2.2.2.2.2]
  rfl

/-- From any memory with zero counters every weakly fair execution of @main terminates, nothing faulting, with the
    result at the network of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v67)
        = Cert.Glue.refValue (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v67).trans (after_ops_result m c),
      (h c main_arg0).trans (keeps_ops (launchContents m c)).1,
      (h c main_arg1).trans (keeps_ops (launchContents m c)).2.1,
      (h c main_arg2).trans (keeps_ops (launchContents m c)).2.2.1,
      (h c main_arg3).trans (keeps_ops (launchContents m c)).2.2.2.1,
      (h c main_arg4).trans (keeps_ops (launchContents m c)).2.2.2.2.1,
      (h c main_arg5).trans (keeps_ops (launchContents m c)).2.2.2.2.2⟩)
    (run_seq scopedRefs_eq scopedSems_eq defs main (fun _ => ops) main_eq (fun _ => ops_sub) m ρ)

end Cert.RefWalk

end
-- ==== Proof.RefLayers.lean ====
/-
  The host's four layers read entry by entry over the extended reals: a host product is the sum over the contracted
  coordinate; the bias is laid along every row; a row's largest entry is the fold of `max` from `⊥` (the host's
  `max (-∞)` of it changes nothing); a row's sum of exponentials is a finite sum from `0`. So the network with the
  layers as the host computes them is the network with the entrywise layers of `Cert.Spec`.
-/
import proofs.«178386_j15762529976718_1_alg».proof.Proof.Glue
import proofs.«178386_j15762529976718_1_alg».proof.Proof.Spec
import proofs.«178386_j15762529976718_1_alg».proof.Proof.LibRowDims
import Idealize.ShloMosaic.Lib.ValueIdx
import Idealize.ShloMosaic.Lib.Pipeline.Value
import Idealize.ShloMosaic.PureOps.Ideal.Laws

noncomputable section

namespace Cert.RefLayers

open Cert.ReferenceIdeal Cert.ReferenceIdeal.Facts₀ Cert.ReferenceIdeal.Facts
open Idealize.ShloMosaic Idealize.ShloMosaic.ValueIdx

/-- The first host product's dimension numbers: rows by the contracted axis, times the contracted axis by columns. -/
theorem dims1_plain : dot_S100000x512_S512x16_S100000x16_1_0_0_1_n_n = DotDims.plain 100000 512 16 := rfl

/-- The second host product's dimension numbers, likewise. -/
theorem dims2_plain : dot_S100000x16_S16x40_S100000x40_1_0_0_1_n_n = DotDims.plain 100000 16 40 := rfl

/-- The first host product is the matrix product. -/
theorem refLinear1_eq (x : (⟨S100000x512, .f32⟩ : BufTy).Contents (Elt Ideal)) (w : (⟨S512x16, .f32⟩ : BufTy).Contents (Elt Ideal)) :
    Cert.Glue.refLinear1 (F := Ideal) x w = Cert.Spec.matProd x w := by
  funext i
  obtain ⟨p, q, rfl⟩ : ∃ (p : Fin 100000) (q : Fin 16), i = ix2 p q := ⟨i 0, i 1, eq_ix2 i⟩
  unfold Cert.Glue.refLinear1
  rw [Cert.Spec.matProd_apply]
  rw [dims1_plain]
  exact RowDims.dotGeneral_plain_apply none .single x w p q

/-- The second host product is the matrix product. -/
theorem refLinear2_eq (h : (⟨S100000x16, .f32⟩ : BufTy).Contents (Elt Ideal)) (w : (⟨S16x40, .f32⟩ : BufTy).Contents (Elt Ideal)) :
    Cert.Glue.refLinear2 (F := Ideal) h w = Cert.Spec.matProd h w := by
  funext i
  obtain ⟨p, q, rfl⟩ : ∃ (p : Fin 100000) (q : Fin 40), i = ix2 p q := ⟨i 0, i 1, eq_ix2 i⟩
  unfold Cert.Glue.refLinear2
  rw [Cert.Spec.matProd_apply]
  rw [dims2_plain]
  exact RowDims.dotGeneral_plain_apply none .single h w p q

/-- A vector laid out as a one-row array and that row laid along every row of an `[M, N]` array reads, at `(p, q)`,
    the vector's entry `q`. -/
theorem rowBias_apply {M N : Nat} (h1 : (⟨1, ![N]⟩ : Shape).BroadcastsInDim ⟨2, ![1, N]⟩ ![1])
    (h2 : (⟨2, ![1, N]⟩ : Shape).BroadcastsInDim ⟨2, ![M, N]⟩ ![0, 1]) (b : (⟨1, ![N]⟩ : Shape).Idx → EReal)
    (p : Fin M) (q : Fin N) :
    broadcastInDim ⟨2, ![M, N]⟩ ![0, 1] h2 (broadcastInDim ⟨2, ![1, N]⟩ ![1] h1 b) (ix2 p q) = b (ix1 q) := by
  have hq : q.val = if N = 1 then 0 else q.val := by
    split_ifs with hn
    · have := q.isLt; omega
    · rfl
  refine (broadcastInDim_apply ![0, 1] h2 _ (ix2 p q) (ix2 (0 : Fin 1) q) (fun a => ?_)).trans
    (broadcastInDim_apply ![1] h1 b (ix2 (0 : Fin 1) q) (ix1 q) (fun a => ?_))
  · match a with
    | ⟨0, _⟩ => show (0 : ℕ) = if (1 : ℕ) = 1 then 0 else _; simp
    | ⟨1, _⟩ => exact hq
  · match a with
    | ⟨0, _⟩ => exact hq

/-- The zero constant laid over an array reads `0` everywhere. -/
theorem zeros_apply {t : Shape} (h : S_.BroadcastsInDim t (![] : Fin 0 → Fin t.rank)) (j : t.Idx) :
    broadcastInDim t ![] h (constant (F := Ideal) S_ .f32 0x00000000#32) j = 0 := by
  unfold broadcastInDim
  rw [constant_apply, Ideal.ofBits_zero_f32]

/-- The host's bias and positive part, entry by entry. -/
theorem refBiasRelu_eq (a : (⟨S100000x16, .f32⟩ : BufTy).Contents (Elt Ideal)) (b : (⟨S16, .f32⟩ : BufTy).Contents (Elt Ideal)) :
    Cert.Glue.refBiasRelu (F := Ideal) a b = Cert.Spec.biasRelu a (Cert.Glue.rowMat b) := by
  funext i
  obtain ⟨p, q, rfl⟩ : ∃ (p : Fin 100000) (q : Fin 16), i = ix2 p q := ⟨i 0, i 1, eq_ix2 i⟩
  unfold Cert.Glue.refBiasRelu
  rw [Cert.Spec.biasRelu_apply, maximumf_apply, addf_apply, zeros_apply, rowBias_apply]
  rfl

/-- A column laid along every column of an `[M, N]` array reads, at `(p, q)`, the column's entry `p`. -/
theorem colOut_apply {α : Type} {M N : Nat} (h2 : (⟨2, ![M, 1]⟩ : Shape).BroadcastsInDim ⟨2, ![M, N]⟩ ![0, 1])
    (y : (⟨2, ![M, 1]⟩ : Shape).Idx → α) (p : Fin M) (q : Fin N) :
    broadcastInDim ⟨2, ![M, N]⟩ ![0, 1] h2 y (ix2 p q) = y (ix2 p (0 : Fin 1)) := by
  refine broadcastInDim_apply ![0, 1] h2 y (ix2 p q) (ix2 p (0 : Fin 1)) (fun a => ?_)
  match a with
  | ⟨0, _⟩ =>
    show p.val = if M = 1 then 0 else p.val
    split_ifs with hm
    · have := p.isLt; omega
    · rfl
  | ⟨1, _⟩ => show (0 : ℕ) = if (1 : ℕ) = 1 then 0 else _; simp

/-- A vector laid out as a one-column array reads, at `(p, 0)`, the vector's entry `p`. -/
theorem colIn_apply {α : Type} {M : Nat} (h1 : (⟨1, ![M]⟩ : Shape).BroadcastsInDim ⟨2, ![M, 1]⟩ ![0])
    (v : (⟨1, ![M]⟩ : Shape).Idx → α) (p : Fin M) :
    broadcastInDim ⟨2, ![M, 1]⟩ ![0] h1 v (ix2 p (0 : Fin 1)) = v (ix1 p) := by
  refine broadcastInDim_apply ![0] h1 v (ix2 p (0 : Fin 1)) (ix1 p) (fun a => ?_)
  match a with
  | ⟨0, _⟩ =>
    show p.val = if M = 1 then 0 else p.val
    split_ifs with hm
    · have := p.isLt; omega
    · rfl

/-- The rows' index set is what is left of an entry's index when the column is dropped. -/
theorem dropCols : S100000x40.Reduces [1] S100000 := by decide

/-- Putting column `k` back beside row `p` gives the entry `(p, k)`. -/
theorem dropCols_lift (p : Fin 100000) (k : Fin 40) : dropCols.lift (ix1 p) k = ix2 p k := by
  funext c
  apply Fin.ext
  match c with
  | ⟨0, _⟩ => rfl
  | ⟨1, _⟩ => rfl

/-- The biased array, entry by entry. -/
theorem refBias40_apply (a : (⟨S100000x40, .f32⟩ : BufTy).Contents (Elt Ideal)) (b : (⟨S40, .f32⟩ : BufTy).Contents (Elt Ideal))
    (p : Fin 100000) (q : Fin 40) :
    Cert.Glue.refBias40 (F := Ideal) a b (ix2 p q) = Cert.Spec.biased a (Cert.Glue.rowMat b) p q := by
  unfold Cert.Glue.refBias40
  rw [addf_apply, rowBias_apply]
  rfl

/-- The host's row maximum, laid along the row, is the fold of `max` from `⊥` over the row's entries. -/
theorem refRowMax_apply (z : (⟨S100000x40, .f32⟩ : BufTy).Contents (Elt Ideal)) (p : Fin 100000) (q : Fin 40) :
    Cert.Glue.refRowMax (F := Ideal) z (ix2 p q) = Cert.Spec.rowMax (fun k => z (ix2 p k)) := by
  unfold Cert.Glue.refRowMax
  rw [colOut_apply, colIn_apply, maximumf_apply]
  refine (congrArg (max _) (Host.reduce_eq_fold_single (FloatOps.maximumf (F := Ideal) (φ := .f32)) z
    (constant (F := Ideal) S_ .f32 0xFF800000#32) reducesTo_S100000x40_S100000_d1 dropCols h_S_ (ix1 p))).trans ?_
  have hbot : Ideal.ofBits .f32 0xFF800000#32 = ⊥ := by simp [Ideal.ofBits, Ideal.ieee]
  have hfun : (z ∘ dropCols.lift (ix1 p)) = fun k => z (ix2 p k) := funext fun k => congrArg z (dropCols_lift p k)
  rw [hfun]
  unfold broadcastInDim
  rw [constant_apply, constant_apply, hbot]
  exact max_bot_left _

/-- The host's logarithm, entry by entry. -/
theorem hostLog_apply {s : Shape} (y : FVec Ideal s .f32) (i : s.Idx) : Host.log y i = Ideal.log (y i) := rfl

/-- The host's exponential, entry by entry. -/
theorem hostExp_apply {s : Shape} (y : FVec Ideal s .f32) (i : s.Idx) : Host.exp y i = Ideal.exp (y i) := rfl

/-- The host's sum along an axis is the initial value plus the exact sum of the entries that reduce to the index. -/
theorem hostReduceAdd_apply {s t u : Shape} {axes : List (Fin s.rank)} (x : FVec Ideal s .f32) (init : u.Idx → Ideal .f32)
    (h : s.ReducesTo axes t) (hu : 0 < u.numel) (j : t.Idx) :
    Host.reduceAdd x init h hu j = Ideal.hostReduceAdd h x (init (Shape.Idx.first hu)) j := rfl

/-- The host's row-wise log-softmax, entry by entry: `z - μ - log (∑ exp (z - μ))` with `μ` the row's largest entry. -/
theorem refLogSoftmax_apply (z : (⟨S100000x40, .f32⟩ : BufTy).Contents (Elt Ideal)) (p : Fin 100000) (q : Fin 40) :
    Cert.Glue.refLogSoftmax (F := Ideal) z (ix2 p q)
      = (z (ix2 p q) - Cert.Spec.rowMax (fun k => z (ix2 p k)))
        - Ideal.log (∑ j : Fin 40, Ideal.exp (z (ix2 p j) - Cert.Spec.rowMax (fun k => z (ix2 p k)))) := by
  unfold Cert.Glue.refLogSoftmax
  rw [subf_apply, subf_apply, refRowMax_apply, colOut_apply, hostLog_apply, colIn_apply, hostReduceAdd_apply,
    Ideal.hostReduceAdd_single reducesTo_S100000x40_S100000_d1 dropCols, constant_apply, Ideal.ofBits_zero_f32, zero_add]
  congr 2
  refine Finset.sum_congr rfl fun (k : Fin 40) _ => ?_
  rw [dropCols_lift p k, hostExp_apply, subf_apply, refRowMax_apply]

/-- The host's bias and row-wise log-softmax, entry by entry. -/
theorem refLogSoftmax_eq (a : (⟨S100000x40, .f32⟩ : BufTy).Contents (Elt Ideal)) (b : (⟨S40, .f32⟩ : BufTy).Contents (Elt Ideal)) :
    Cert.Glue.refLogSoftmax (F := Ideal) (Cert.Glue.refBias40 a b) = Cert.Spec.biasLogSoftmax a (Cert.Glue.rowMat b) := by
  funext i
  obtain ⟨p, q, rfl⟩ : ∃ (p : Fin 100000) (q : Fin 40), i = ix2 p q := ⟨i 0, i 1, eq_ix2 i⟩
  rw [Cert.Spec.biasLogSoftmax_apply, refLogSoftmax_apply]
  simp only [refBias40_apply]

/-- Over the extended reals the two spellings of the network are one function. -/
theorem refValue_eq_kerValue (x : (⟨S100000x512, .f32⟩ : BufTy).Contents (Elt Ideal)) (e : (⟨S2x3200000, .i32⟩ : BufTy).Contents (Elt Ideal))
    (w1 : (⟨S512x16, .f32⟩ : BufTy).Contents (Elt Ideal)) (b1 : (⟨S16, .f32⟩ : BufTy).Contents (Elt Ideal))
    (w2 : (⟨S16x40, .f32⟩ : BufTy).Contents (Elt Ideal)) (b2 : (⟨S40, .f32⟩ : BufTy).Contents (Elt Ideal)) :
    Cert.Glue.refValue (F := Ideal) x e w1 b1 w2 b2 = Cert.Glue.kerValue x e w1 b1 w2 b2 := by
  unfold Cert.Glue.refValue Cert.Glue.kerValue
  rw [refLogSoftmax_eq, refLinear2_eq, refBiasRelu_eq, refLinear1_eq]

end Cert.RefLayers

end
-- ==== Proof.lean ====
/-
  A two-layer graph convolution with self loops and symmetric normalisation, ending in a row-wise log-softmax: the
  kernel program runs its two matrix products, the bias with positive part and the bias with log-softmax as four tiled
  regions (2000 node rows per grid point) and leaves the gather-scale-scatter aggregation to the host; the reference
  computes everything on the host. Read over the extended reals both are ONE function of the six arguments
  (`Cert.Glue.kerValue`): a region's output array is the entrywise layer of its input arrays whatever the tiling, since
  a row of each layer depends on the same row of its first operand only (Region0 … Region3); the host's layers are the
  same entrywise functions (RefLayers); and the aggregation between the layers is the same host operations on both
  sides, carried as named functions and never opened (KWalk, RefWalk). No law of the extended reals beyond the
  definitions of the operations is used, so the finiteness precondition is never opened.
  The three frames: the two kernel programs' are the generated frame certificates; the reference's is its run with the
  result dropped. The idealization rewrote no operation, so nothing is owed for it.
-/
import proofs.«178386_j15762529976718_1_alg».proof.Defs
import proofs.«178386_j15762529976718_1_alg».proof.Proof.Gen.Kernel
import proofs.«178386_j15762529976718_1_alg».proof.Proof.Gen.Kernel.Frame
import proofs.«178386_j15762529976718_1_alg».proof.Proof.Gen.KernelIdeal
import proofs.«178386_j15762529976718_1_alg».proof.Proof.Gen.KernelIdeal.Frame
import proofs.«178386_j15762529976718_1_alg».proof.Proof.Gen.ReferenceIdeal
import proofs.«178386_j15762529976718_1_alg».proof.Proof.Gen.Pre_finite_inputs
import proofs.«178386_j15762529976718_1_alg».proof.Proof.KRun
import proofs.«178386_j15762529976718_1_alg».proof.Proof.KWalk
import proofs.«178386_j15762529976718_1_alg».proof.Proof.Region0
import proofs.«178386_j15762529976718_1_alg».proof.Proof.Region1
import proofs.«178386_j15762529976718_1_alg».proof.Proof.Region2
import proofs.«178386_j15762529976718_1_alg».proof.Proof.Region3
import proofs.«178386_j15762529976718_1_alg».proof.Proof.RefWalk
import proofs.«178386_j15762529976718_1_alg».proof.Proof.RefLayers
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.RefWalk.run (F := Ideal) m ρ)

/-- Both programs end with the result array at the network of the arguments: the kernel program by the walk through
    its regions and host stretches, the reference by its run and the entrywise reading of its layers. -/
theorem algebraic : Cert.algebraic_KernelIdeal_ReferenceIdeal := by
  intro m ρ m' ρ' _ hagree
  refine ⟨fun c => Cert.Glue.kerValue (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Walk.result m ρ Cert.KernelIdeal.Region0.value Cert.KernelIdeal.Region1.value
        Cert.KernelIdeal.Region2.value Cert.KernelIdeal.Region3.value c), (h c).2⟩)
      (Cert.KernelIdeal.GenRun.run (F := Ideal) m ρ)
  · refine (θ_run Cert.ReferenceIdeal.defs _ _).mono (fun r h c => ⟨(h c).1.trans ?_, (h c).2⟩)
      (Cert.RefWalk.run (F := Ideal) m' ρ')
    obtain ⟨e0, e1, e2, e3, e4, e5⟩ := hagree c
    exact (Cert.RefLayers.refValue_eq_kerValue _ _ _ _ _ _).trans
      (congr (congr (congr (congr (congr (congrArg Cert.Glue.kerValue e0) e1) e2) e3) e4) e5)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
